-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel

variable [Facts]

def fn {F : FTy → Type} [FloatOps F] (main_arg0 : FVec F S262144x512 .f32) (main_arg1 : IVec S262144 32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  main_v3
-- ==== Kernel.lean ====
abbrev S262144x512 : Shape := ⟨2, ![262144, 512]⟩
abbrev S262144 : Shape := ⟨1, ![262144]⟩
abbrev S1x262144 : Shape := ⟨2, ![1, 262144]⟩
abbrev S2x8x512 : Shape := ⟨3, ![2, 8, 512]⟩
abbrev S2x8x128 : Shape := ⟨3, ![2, 8, 128]⟩
abbrev S4096x512 : Shape := ⟨2, ![4096, 512]⟩
abbrev S1x4096 : Shape := ⟨2, ![1, 4096]⟩
abbrev S1x8x512 : Shape := ⟨3, ![1, 8, 512]⟩
abbrev S1x8x128 : Shape := ⟨3, ![1, 8, 128]⟩
abbrev S8x512 : Shape := ⟨2, ![8, 512]⟩
abbrev S8x128 : Shape := ⟨2, ![8, 128]⟩
abbrev S8x1 : Shape := ⟨2, ![8, 1]⟩
abbrev S1024x512 : Shape := ⟨2, ![1024, 512]⟩
abbrev S1x1024 : Shape := ⟨2, ![1, 1024]⟩
abbrev S1024 : Shape := ⟨1, ![1024]⟩
abbrev S1024x1 : Shape := ⟨2, ![1024, 1]⟩
abbrev S8x1024 : Shape := ⟨2, ![8, 1024]⟩
abbrev S8 : Shape := ⟨1, ![8]⟩
abbrev S_ : Shape := ⟨0, ![]⟩
abbrev S5x512 : Shape := ⟨2, ![5, 512]⟩
abbrev S1x512 : Shape := ⟨2, ![1, 512]⟩
abbrev S512 : Shape := ⟨1, ![512]⟩
abbrev S1 : Shape := ⟨1, ![1]⟩

abbrev nBuf : Space → Nat
  | .hbm => 49
  | .vmem => 10
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S1x262144, .i32⟩
  | .hbm, ⟨3, _⟩ => ⟨S2x8x512, .f32⟩
  | .hbm, ⟨4, _⟩ => ⟨S2x8x128, .f32⟩
  | .hbm, ⟨5, _⟩ => ⟨S_, .f32⟩
  | .hbm, ⟨6, _⟩ => ⟨S8x512, .f32⟩
  | .hbm, ⟨7, _⟩ => ⟨S_, .f32⟩
  | .hbm, ⟨8, _⟩ => ⟨S8x128, .f32⟩
  | .hbm, ⟨9, _⟩ => ⟨S_, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S8x512, .f32⟩
  | .hbm, ⟨19, _⟩ => ⟨S8x512, .f32⟩
  | .hbm, ⟨20, _⟩ => ⟨S5x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | .local _ .vmem, ⟨0, _⟩ => ⟨S4096x512, .f32⟩
  | .local _ .vmem, ⟨1, _⟩ => ⟨S4096x512, .f32⟩
  | .local _ .vmem, ⟨2, _⟩ => ⟨S1x4096, .i32⟩
  | .local _ .vmem, ⟨3, _⟩ => ⟨S1x4096, .i32⟩
  | .local _ .vmem, ⟨4, _⟩ => ⟨S1x8x512, .f32⟩
  | .local _ .vmem, ⟨5, _⟩ => ⟨S1x8x512, .f32⟩
  | .local _ .vmem, ⟨6, _⟩ => ⟨S1x8x128, .f32⟩
  | .local _ .vmem, ⟨7, _⟩ => ⟨S1x8x128, .f32⟩
  | .local _ .vmem, ⟨8, _⟩ => ⟨S8x512, .f32⟩
  | .local _ .vmem, ⟨9, _⟩ => ⟨S8x128, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v8 : BitVec 32 := Scalar.muli arg8 c1_i32_4
  let v9 : BitVec 32 := Scalar.addi c0_i32_5 v8
  let c1024_i32 : BitVec 32 := 1024#32
  let v10 : BitVec 32 := Scalar.muli v9 c1024_i32
  v10
def k0_off1 (k0_t1 : Fin k0_t1_loop.trips) : Fin 2 → Nat :=
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v8 : BitVec 32 := Scalar.muli arg8 c1_i32_4
  let v9 : BitVec 32 := Scalar.addi c0_i32_5 v8
  let c1024_i32 : BitVec 32 := 1024#32
  let v10 : BitVec 32 := Scalar.muli v9 c1024_i32
  let v11 : BitVec 32 := v10
  let v12 : Index := Scalar.indexCast v11
  let c0 : Index := 0#32
  ![v12.toNat, 0]
def k0_off2 (k0_t1 : Fin k0_t1_loop.trips) : Fin 2 → Nat :=
  let c0_6 : Index := 0#32
  let c0_i32_5 : BitVec 32 := 0#32
  let c0_i32_1 : BitVec 32 := 0#32
  let c1_i32 : BitVec 32 := 1#32
  let arg8 : BitVec 32 := Scf.iv c0_i32_1 c1_i32 k0_t1
  let c1_i32_4 : BitVec 32 := 1#32
  let v8 : BitVec 32 := Scalar.muli arg8 c1_i32_4
  let v9 : BitVec 32 := Scalar.addi c0_i32_5 v8
  let c1024_i32 : BitVec 32 := 1024#32
  let v10 : BitVec 32 := Scalar.muli v9 c1024_i32
  let v11 : BitVec 32 := v10
  let v14 : Index := Scalar.indexCast v11
  ![0, v14.toNat]
def k0_cond2 (i : grid0.Coords) : BitVec 1 :=
  let arg1 : BitVec 32 := BitVec.ofNat 32 (i 1).val
  let c31_i32 : BitVec 32 := 31#32
  let v5 : BitVec 1 := Scalar.cmpi .eq arg1 c31_i32
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S262144_S1x262144 : S262144.ShapeCasts S1x262144
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x128_S8x128_0_0 : ∀ a, (![0, 0] : Fin 2 → Nat) a + S8x128.size a ≤ S8x128.size a
  h_S8x128 : 0 < S8x128.numel
  shapeCasts_S8x128_S8x128 : S8x128.ShapeCasts S8x128
  iota_S8x1_d0_w32 : S8x1.Iotas .tc 32 [0]
  h_S1024x512 : 0 < S1024x512.numel
  h_S1x1024 : 0 < S1x1024.numel
  shapeCasts_S1x1024_S1x1024 : S1x1024.ShapeCasts S1x1024
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  broadcasts_S8x1_S8x1024 : S8x1.Broadcasts S8x1024
  broadcasts_S1x1024_S8x1024 : S1x1024.Broadcasts S8x1024
  natLt_1_32 : 1 < 32
  reduces_S8x1024_S8 : S8x1024.Reduces [1] S8
  shapeCasts_S8_S8x1 : S8.ShapeCasts S8x1
  shapeCasts_S8x1_S8x1 : S8x1.ShapeCasts S8x1
  broadcasts_S8x1_S8x128 : S8x1.Broadcasts S8x128
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S1x8x512 : S8x512.ShapeCasts S1x8x512
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x512_S8x512_d0 : S2x8x512.ReducesTo [0] S8x512
  h_S_ : 0 < S_.numel
  reducesTo_S2x8x128_S8x128_d0 : S2x8x128.ReducesTo [0] S8x128
  reducesTo_S8x128_S8_d1 : S8x128.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  slices_S8x512_S5x512_0_0 : S8x512.Slices ![0, 0] S5x512
  slices_S5x512_S1x512_0_0 : S5x512.Slices ![0, 0] S1x512
  shapeCasts_S1x512_S512 : S1x512.ShapeCasts S512
  slices_S5x512_S1x512_1_0 : S5x512.Slices ![1, 0] S1x512
  slices_S5x512_S1x512_2_0 : S5x512.Slices ![2, 0] S1x512
  slices_S5x512_S1x512_3_0 : S5x512.Slices ![3, 0] S1x512
  reducesTo_S512_S_d0 : S512.ReducesTo [0] S_
  shapeCasts_S_S1 : S_.ShapeCasts S1
  dot_S8x1024_S1024x512_S8x512_1_0_0_1_n_n_wf : DotDims.WF S8x1024 S1024x512 S8x512 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1024x512.size a ≤ S4096x512.size a
  k0_off2_inb : ∀ k0_t1 : Fin k0_t1_loop.trips, ∀ a, (k0_off2 k0_t1) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x262144.size a
  hwx0_1 : ∀ i : grid0.Coords, EltTy.bits .i32 = 32 ∨ (Rect.block (s := S1x262144) S1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S2x8x512.size a
  hwx0_2 : ∀ i : grid0.Coords, EltTy.bits .f32 = 32 ∨ (Rect.block (s := S2x8x512) S1x8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S8x1024_S1024x512_S8x512_1_0_0_1_n_n : DotDims S8x1024 S1024x512 S8x512 where
  lhsContracting := [1]
  rhsContracting := [0]
  lhsNonContracting := [0]
  rhsNonContracting := [1]
  lhsBatch := []
  rhsBatch := []
  wf := dot_S8x1024_S1024x512_S8x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144x512 : Shape := ⟨2, ![262144, 512]⟩
abbrev S262144 : Shape := ⟨1, ![262144]⟩
abbrev S_ : Shape := ⟨0, ![]⟩
abbrev S262144x1 : Shape := ⟨2, ![262144, 1]⟩
abbrev S5x512 : Shape := ⟨2, ![5, 512]⟩
abbrev S5 : Shape := ⟨1, ![5]⟩
abbrev S5x1 : Shape := ⟨2, ![5, 1]⟩
abbrev S1x512 : Shape := ⟨2, ![1, 512]⟩
abbrev S512 : Shape := ⟨1, ![512]⟩
abbrev S1 : Shape := ⟨1, ![1]⟩

abbrev nBuf : Space → Nat
  | .hbm => 60
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S262144x1, .f32⟩
  | .hbm, ⟨8, _⟩ => ⟨S262144x512, .f32⟩
  | .hbm, ⟨9, _⟩ => ⟨S262144x512, .f32⟩
  | .hbm, ⟨10, _⟩ => ⟨S262144x512, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S262144x512, .f32⟩
  | .hbm, ⟨15, _⟩ => ⟨S262144x512, .f32⟩
  | .hbm, ⟨16, _⟩ => ⟨S_, .f32⟩
  | .hbm, ⟨17, _⟩ => ⟨S5x512, .f32⟩
  | .hbm, ⟨18, _⟩ => ⟨S262144x1, .i32⟩
  | .hbm, ⟨19, _⟩ => ⟨S5x512, .f32⟩
  | .hbm, ⟨20, _⟩ => ⟨S_, .f32⟩
  | .hbm, ⟨21, _⟩ => ⟨S262144, .f32⟩
  | .hbm, ⟨22, _⟩ => ⟨S_, .f32⟩
  | .hbm, ⟨23, _⟩ => ⟨S5, .f32⟩
  | .hbm, ⟨24, _⟩ => ⟨S262144x1, .i32⟩
  | .hbm, ⟨25, _⟩ => ⟨S5, .f32⟩
  | .hbm, ⟨26, _⟩ => ⟨S_, .f32⟩
  | .hbm, ⟨27, _⟩ => ⟨S5, .f32⟩
  | .hbm, ⟨28, _⟩ => ⟨S5, .f32⟩
  | .hbm, ⟨29, _⟩ => ⟨S5x1, .f32⟩
  | .hbm, ⟨30, _⟩ => ⟨S5x512, .f32⟩
  | .hbm, ⟨31, _⟩ => ⟨S5x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x512, .f32⟩
  | .hbm, ⟨43, _⟩ => ⟨S512, .f32⟩
  | .hbm, ⟨44, _⟩ => ⟨S1x512, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  reducesTo_S262144x512_S262144_d1 : S262144x512.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S_S5x512 : S_.BroadcastsInDim S5x512 (![] : Fin 0 → Fin S5x512.rank)
  bcast_S_S5 : S_.BroadcastsInDim S5 (![] : Fin 0 → Fin S5.rank)
  bcast_S5_S5x1_0 : S5.BroadcastsInDim S5x1 (![0] : Fin 1 → Fin S5x1.rank)
  bcast_S5x1_S5x512_0_1 : S5x1.BroadcastsInDim S5x512 (![0, 1] : Fin 2 → Fin S5x512.rank)
  slices_S5x512_S1x512_0_0 : S5x512.Slices ![0, 0] S1x512
  shapeCasts_S1x512_S512 : S1x512.ShapeCasts S512
  slices_S5x512_S1x512_1_0 : S5x512.Slices ![1, 0] S1x512
  reducesTo_S512_S_d0 : S512.ReducesTo [0] S_
  slices_S5x512_S1x512_2_0 : S5x512.Slices ![2, 0] S1x512
  slices_S5x512_S1x512_3_0 : S5x512.Slices ![3, 0] S1x512
  shapeCasts_S_S1 : S_.ShapeCasts S1
  scatter_S5x512_S262144x1_S262144x512_1_0_0_1_wf : ScatterDims.WF S5x512 S262144x1 S262144x512 [1] [0] [0] 1
  scatter_S5_S262144x1_S262144_n_0_0_1_wf : ScatterDims.WF S5 S262144x1 S262144 [] [0] [0] 1

variable [Facts₀]

def scatter_S5x512_S262144x1_S262144x512_1_0_0_1 : ScatterDims S5x512 S262144x1 S262144x512 where
  updateWindowDims := [1]
  insertedWindowDims := [0]
  scatterDimsToOperandDims := [0]
  indexVectorDim := 1
  wf := scatter_S5x512_S262144x1_S262144x512_1_0_0_1_wf
def scatter_S5_S262144x1_S262144_n_0_0_1 : ScatterDims S5 S262144x1 S262144 where
  updateWindowDims := []
  insertedWindowDims := [0]
  scatterDimsToOperandDims := [0]
  indexVectorDim := 1
  wf := scatter_S5_S262144x1_S262144_n_0_0_1_wf

class Facts : Prop extends Facts₀ where

variable [Facts]
-- ==== Proof.Pieces.lean ====
/-
  What one grid step leaves in the kernel's two carried scratch arrays and, at a core's last step, in its two
  output blocks — read off the generated run of the kernel body, at any float instance.

  A grid step consumes a [4096, 512] block of the input and the matching [1, 4096] block of class ids in four
  chunks of 1024 rows.  Chunk `k` replaces the [8, 512] accumulator `a` by `k0_pay7 ids X_k T_k a` (the accumulator
  plus the one-hot matrix of the chunk's ids times the chunk's softmax rows) and the [8, 128] count accumulator
  `b` by `k0_pay3 (k0_pay8 ids T_k b)` (the count accumulator plus the chunk's per-class counts on every lane).
  So after the four chunks the accumulators are the four-fold iterates `accS … 4`, `accC … 4` of those maps, started
  from what the step found (cases B and C) or from the zero arrays the step stores first (case A); at a core's
  last step (case C) the output blocks receive the final accumulators, re-laid as [1, 8, 512] and [1, 8, 128].
-/
import proofs.«431416_j41403484733685_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The class ids 0..7 as a column: what each chunk's ids are compared with. -/
abbrev ids : IVec S8x1 32 := iota .tc S8x1 32 [0] iota_S8x1_d0_w32

/-- Chunk `k` of a step's input block: rows `1024 k` to `1024 k + 1023`. -/
def chunkX (x0 : Vec F S4096x512 .f32) (k : Fin k0_t1_loop.trips) : Vec F S1024x512 .f32 :=
  View.ld x0 (Rect.unit (s := S4096x512) (k0_off1 k) S1024x512.size (k0_off1_inb k))

/-- Chunk `k` of a step's block of class ids. -/
def chunkT (x1 : Vec F S1x4096 .i32) (k : Fin k0_t1_loop.trips) : Vec F S1x1024 .i32 :=
  View.ld x1 (Rect.unit (s := S1x4096) (k0_off2 k) S1x1024.size (k0_off2_inb k))

/-- The [8, 512] accumulator after the first `n` chunks of a step, started from `a`. -/
def accS (x0 : Vec F S4096x512 .f32) (x1 : Vec F S1x4096 .i32) (a : Vec F S8x512 .f32) : ℕ → Vec F S8x512 .f32
  | 0 => a
  | n + 1 => if h : n < k0_t1_loop.trips then k0_pay7 ids (chunkX x0 ⟨n, h⟩) (chunkT x1 ⟨n, h⟩) (accS x0 x1 a n) else accS x0 x1 a n

/-- The [8, 128] count accumulator after the first `n` chunks of a step, started from `b`. -/
def accC (x1 : Vec F S1x4096 .i32) (b : Vec F S8x128 .f32) : ℕ → Vec F S8x128 .f32
  | 0 => b
  | n + 1 => if h : n < k0_t1_loop.trips then k0_pay3 (k0_pay8 ids (chunkT x1 ⟨n, h⟩) (accC x1 b n)) else accC x1 b n

/-- One chunk's stores: the two accumulators' new contents, each a function of the chunk's loads and of what the
    accumulator held. -/
theorem tripL_eq (𝒱 : Variants) (bd : Option 𝒱.V) (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S8x512 .f32) (harg6 : arg6.IsWhole) (arg7 : Memref sig .tc .vmem S8x128 .f32) (harg7 : arg7.IsWhole) (v3 : IVec S8x1 32)
    (X2 : BufTy.Contents (Elt F) arg2.view.ty) (X3 : BufTy.Contents (Elt F) arg3.view.ty) (k : Fin k0_t1_loop.trips)
    (f6 : BufTy.Contents (Elt F) arg6.view.ty) (f7 : BufTy.Contents (Elt F) arg7.view.ty) :
    tripL_k0_t1 (F := F) 𝒱 c bd i arg2 harg2 arg3 harg3 arg4 harg4 arg5 harg5 arg6 harg6 arg7 harg7 v3 X2 X3 k f6 f7
      = ([⟨Rect.unit (s := S8x512) ![0, 0] S8x512.size inb_S8x512_S8x512_0_0,
            k0_pay7 v3 (chunkX (arg2.view.read (Elt F) X2) k) (chunkT (arg3.view.read (Elt F) X3) k) (arg6.view.read (Elt F) f6)⟩],
         [⟨Rect.unit (s := S8x128) ![0, 0] S8x128.size inb_S8x128_S8x128_0_0,
            k0_pay3 (k0_pay8 v3 (chunkT (arg3.view.read (Elt F) X3) k) (arg7.view.read (Elt F) f7))⟩]) := by
  unfold tripL_k0_t1 trip_k0_t1 chunkX chunkT
  dsimp only
  sl_unfold_run_names
  simp only [View.readAt_eq_ld, View.ld_unit_zero (S := S8x512) hz2, View.ld_unit_zero (S := S8x128) hz2]

/-- A store through the whole array, made last, is what the array then reads as. -/
theorem read_writes_whole_cons {sig : RefSig} {κ : Kind} {sp : Space} {S : Shape} {e : EltTy} {Val : EltTy → Type}
    [∀ e, Nonempty (Val e)] (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

theorem accS_succ (x0 : Vec F S4096x512 .f32) (x1 : Vec F S1x4096 .i32) (a : Vec F S8x512 .f32) (n : ℕ) (h : n < k0_t1_loop.trips) :
    accS x0 x1 a (n + 1) = k0_pay7 ids (chunkX x0 ⟨n, h⟩) (chunkT x1 ⟨n, h⟩) (accS x0 x1 a n) := by
  show (if h : n < k0_t1_loop.trips then k0_pay7 ids (chunkX x0 ⟨n, h⟩) (chunkT x1 ⟨n, h⟩) (accS x0 x1 a n) else accS x0 x1 a n) = _
  exact dif_pos h

theorem accC_succ (x1 : Vec F S1x4096 .i32) (b : Vec F S8x128 .f32) (n : ℕ) (h : n < k0_t1_loop.trips) :
    accC x1 b (n + 1) = k0_pay3 (k0_pay8 ids (chunkT x1 ⟨n, h⟩) (accC x1 b n)) := by
  show (if h : n < k0_t1_loop.trips then k0_pay3 (k0_pay8 ids (chunkT x1 ⟨n, h⟩) (accC x1 b n)) else accC x1 b n) = _
  exact dif_pos h

/-- After the first `n` chunks the two scratch arrays, whatever they held (`G6`, `G7`), read as the `n`-fold
    iterates started from what they held: each chunk's one store covers its array, so only the last store of each
    is read, and its payload is computed from what the previous chunks left. -/
theorem pb_read (𝒱 : Variants) (bd : Option 𝒱.V) (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S8x512 .f32) (harg6 : arg6.IsWhole) (arg7 : Memref sig .tc .vmem S8x128 .f32) (harg7 : arg7.IsWhole)
    (X2 : BufTy.Contents (Elt F) arg2.view.ty) (X3 : BufTy.Contents (Elt F) arg3.view.ty)
    (G6 : BufTy.Contents (Elt F) arg6.view.ty) (G7 : BufTy.Contents (Elt F) arg7.view.ty) :
    ∀ n, n ≤ k0_t1_loop.trips →
      arg6.view.read (Elt F) (arg6.view.writes (Elt F) G6 (pb_k0_t1 (F := F) 𝒱 c bd i arg2 harg2 arg3 harg3 arg4 harg4 arg5 harg5 arg6 harg6 arg7 harg7 ids X2 X3 G6 G7 n).1)
          = accS (arg2.view.read (Elt F) X2) (arg3.view.read (Elt F) X3) (arg6.view.read (Elt F) G6) n
        ∧ arg7.view.read (Elt F) (arg7.view.writes (Elt F) G7 (pb_k0_t1 (F := F) 𝒱 c bd i arg2 harg2 arg3 harg3 arg4 harg4 arg5 harg5 arg6 harg6 arg7 harg7 ids X2 X3 G6 G7 n).2)
          = accC (arg3.view.read (Elt F) X3) (arg7.view.read (Elt F) G7) n
  | 0, _ => ⟨rfl, rfl⟩
  | n + 1, hn => by
    have hlt : n < k0_t1_loop.trips := hn
    obtain ⟨ih1, ih2⟩ := pb_read 𝒱 bd c i arg2 harg2 arg3 harg3 arg4 harg4 arg5 harg5 arg6 harg6 arg7 harg7 X2 X3 G6 G7 n (Nat.le_of_lt hlt)
    have hs := pb_k0_t1_succ (F := F) 𝒱 c bd i arg2 harg2 arg3 harg3 arg4 harg4 arg5 harg5 arg6 harg6 arg7 harg7 ids X2 X3 G6 G7 ⟨n, hlt⟩
    rw [tripL_eq] at hs
    have hs' : pb_k0_t1 (F := F) 𝒱 c bd i arg2 harg2 arg3 harg3 arg4 harg4 arg5 harg5 arg6 harg6 arg7 harg7 ids X2 X3 G6 G7 (n + 1) = _ := hs
    rw [hs', accS_succ _ _ _ n hlt, accC_succ _ _ n hlt]
    refine ⟨?_, ?_⟩
    · refine (read_writes_whole_cons arg6.view G6 hz2 inb_S8x512_S8x512_0_0 _ _).trans ?_
      rw [ih1]
    · refine (read_writes_whole_cons arg7.view G7 hz2 inb_S8x128_S8x128_0_0 _ _).trans ?_
      rw [ih2]

/-- The loop has four trips. -/
theorem trips_eq : k0_t1_loop.trips = 4 := by decide +kernel

/-! ## The three cases of a grid step -/

/-- Not a core's first step (cases B and C): the accumulators are the four-fold iterates of what the step found. -/
theorem soutB_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S8x512 .f32) (harg6 : arg6.IsWhole) (arg7 : Memref sig .tc .vmem S8x128 .f32) (harg7 : arg7.IsWhole) (hc0 : ¬cond0_0 i) (hc1 : ¬cond0_1 i) (x0 : Vec F S4096x512 .f32) (x1 : Vec F S1x4096 .i32) (xs0 : Vec F S8x512 .f32) (xs1 : Vec F S8x128 .f32) :
    sout0_B_0 c i arg2 harg2 arg3 harg3 arg4 harg4 arg5 harg5 arg6 harg6 arg7 harg7 hc0 hc1 x0 x1 xs0 xs1 = accS x0 x1 xs0 k0_t1_loop.trips := by
  have hcov := scover0_B_0 c i arg2 harg2 arg3 harg3 arg4 harg4 arg5 harg5 arg6 harg6 arg7 harg7 hc0 hc1 x0 x1 xs0 xs1
  unfold sout0_B_0
  rw [View.read_writes_eq_canon _ _ _ hcov]
  revert hcov
  unfold kernelRun0_B
  dsimp only
  sl_unfold_run_names
  intro hcov
  rw [← View.read_writes_eq_canon arg6.view (harg6.unread xs0) _ hcov]
  refine ((pb_read Variants.none none c i arg2 harg2 arg3 harg3 arg4 harg4 arg5 harg5 arg6 harg6 arg7 harg7 (harg2.unread x0) (harg3.unread x1) (harg6.unread xs0) (harg7.unread xs1) _ le_rfl).1).trans ?_
  rw [harg2.read_unread, harg3.read_unread, harg6.read_unread]

theorem soutB_1 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S8x512 .f32) (harg6 : arg6.IsWhole) (arg7 : Memref sig .tc .vmem S8x128 .f32) (harg7 : arg7.IsWhole) (hc0 : ¬cond0_0 i) (hc1 : ¬cond0_1 i) (x0 : Vec F S4096x512 .f32) (x1 : Vec F S1x4096 .i32) (xs0 : Vec F S8x512 .f32) (xs1 : Vec F S8x128 .f32) :
    sout0_B_1 c i arg2 harg2 arg3 harg3 arg4 harg4 arg5 harg5 arg6 harg6 arg7 harg7 hc0 hc1 x0 x1 xs0 xs1 = accC x1 xs1 k0_t1_loop.trips := by
  have hcov := scover0_B_1 c i arg2 harg2 arg3 harg3 arg4 harg4 arg5 harg5 arg6 harg6 arg7 harg7 hc0 hc1 x0 x1 xs0 xs1
  unfold sout0_B_1
  rw [View.read_writes_eq_canon _ _ _ hcov]
  revert hcov
  unfold kernelRun0_B
  dsimp only
  sl_unfold_run_names
  intro hcov
  rw [← View.read_writes_eq_canon arg7.view (harg7.unread xs1) _ hcov]
  refine ((pb_read Variants.none none c i arg2 harg2 arg3 harg3 arg4 harg4 arg5 harg5 arg6 harg6 arg7 harg7 (harg2.unread x0) (harg3.unread x1) (harg6.unread xs0) (harg7.unread xs1) _ le_rfl).2).trans ?_
  rw [harg3.read_unread, harg7.read_unread]

theorem soutC_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S8x512 .f32) (harg6 : arg6.IsWhole) (arg7 : Memref sig .tc .vmem S8x128 .f32) (harg7 : arg7.IsWhole) (hc0 : ¬cond0_0 i) (hc1 : cond0_1 i) (x0 : Vec F S4096x512 .f32) (x1 : Vec F S1x4096 .i32) (xs0 : Vec F S8x512 .f32) (xs1 : Vec F S8x128 .f32) :
    sout0_C_0 c i arg2 harg2 arg3 harg3 arg4 harg4 arg5 harg5 arg6 harg6 arg7 harg7 hc0 hc1 x0 x1 xs0 xs1 = accS x0 x1 xs0 k0_t1_loop.trips := by
  have hcov := scover0_C_0 c i arg2 harg2 arg3 harg3 arg4 harg4 arg5 harg5 arg6 harg6 arg7 harg7 hc0 hc1 x0 x1 xs0 xs1
  unfold sout0_C_0
  rw [View.read_writes_eq_canon _ _ _ hcov]
  revert hcov
  unfold kernelRun0_C
  dsimp only
  sl_unfold_run_names
  intro hcov
  rw [← View.read_writes_eq_canon arg6.view (harg6.unread xs0) _ hcov]
  refine ((pb_read Variants.none none c i arg2 harg2 arg3 harg3 arg4 harg4 arg5 harg5 arg6 harg6 arg7 harg7 (harg2.unread x0) (harg3.unread x1) (harg6.unread xs0) (harg7.unread xs1) _ le_rfl).1).trans ?_
  rw [harg2.read_unread, harg3.read_unread, harg6.read_unread]

theorem soutC_1 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S8x512 .f32) (harg6 : arg6.IsWhole) (arg7 : Memref sig .tc .vmem S8x128 .f32) (harg7 : arg7.IsWhole) (hc0 : ¬cond0_0 i) (hc1 : cond0_1 i) (x0 : Vec F S4096x512 .f32) (x1 : Vec F S1x4096 .i32) (xs0 : Vec F S8x512 .f32) (xs1 : Vec F S8x128 .f32) :
    sout0_C_1 c i arg2 harg2 arg3 harg3 arg4 harg4 arg5 harg5 arg6 harg6 arg7 harg7 hc0 hc1 x0 x1 xs0 xs1 = accC x1 xs1 k0_t1_loop.trips := by
  have hcov := scover0_C_1 c i arg2 harg2 arg3 harg3 arg4 harg4 arg5 harg5 arg6 harg6 arg7 harg7 hc0 hc1 x0 x1 xs0 xs1
  unfold sout0_C_1
  rw [View.read_writes_eq_canon _ _ _ hcov]
  revert hcov
  unfold kernelRun0_C
  dsimp only
  sl_unfold_run_names
  intro hcov
  rw [← View.read_writes_eq_canon arg7.view (harg7.unread xs1) _ hcov]
  refine ((pb_read Variants.none none c i arg2 harg2 arg3 harg3 arg4 harg4 arg5 harg5 arg6 harg6 arg7 harg7 (harg2.unread x0) (harg3.unread x1) (harg6.unread xs0) (harg7.unread xs1) _ le_rfl).2).trans ?_
  rw [harg3.read_unread, harg7.read_unread]

/-- A core's last step (case C) also stores the final accumulators into the output blocks. -/
theorem outC_2 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S8x512 .f32) (harg6 : arg6.IsWhole) (arg7 : Memref sig .tc .vmem S8x128 .f32) (harg7 : arg7.IsWhole) (hc0 : ¬cond0_0 i) (hc1 : cond0_1 i) (x0 : Vec F S4096x512 .f32) (x1 : Vec F S1x4096 .i32) (xs0 : Vec F S8x512 .f32) (xs1 : Vec F S8x128 .f32) :
    out0_C_2 c i arg2 harg2 arg3 harg3 arg4 harg4 arg5 harg5 arg6 harg6 arg7 harg7 hc0 hc1 x0 x1 xs0 xs1 = k0_pay4 (accS x0 x1 xs0 k0_t1_loop.trips) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_run_names
  rw [View.canon_unit_zero hz3]
  simp only [View.readAt_eq_ld, View.ld_unit_zero (S := S8x512) hz2]
  rw [(pb_read Variants.none none c i arg2 harg2 arg3 harg3 arg4 harg4 arg5 harg5 arg6 harg6 arg7 harg7 (harg2.unread x0) (harg3.unread x1) (harg6.unread xs0) (harg7.unread xs1) _ le_rfl).1,
    harg2.read_unread, harg3.read_unread, harg6.read_unread]

theorem outC_3 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S8x512 .f32) (harg6 : arg6.IsWhole) (arg7 : Memref sig .tc .vmem S8x128 .f32) (harg7 : arg7.IsWhole) (hc0 : ¬cond0_0 i) (hc1 : cond0_1 i) (x0 : Vec F S4096x512 .f32) (x1 : Vec F S1x4096 .i32) (xs0 : Vec F S8x512 .f32) (xs1 : Vec F S8x128 .f32) :
    out0_C_3 c i arg2 harg2 arg3 harg3 arg4 harg4 arg5 harg5 arg6 harg6 arg7 harg7 hc0 hc1 x0 x1 xs0 xs1 = k0_pay5 (accC x1 xs1 k0_t1_loop.trips) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_run_names
  rw [View.canon_unit_zero hz3]
  simp only [View.readAt_eq_ld, View.ld_unit_zero (S := S8x128) hz2]
  rw [(pb_read Variants.none none c i arg2 harg2 arg3 harg3 arg4 harg4 arg5 harg5 arg6 harg6 arg7 harg7 (harg2.unread x0) (harg3.unread x1) (harg6.unread xs0) (harg7.unread xs1) _ le_rfl).2,
    harg3.read_unread, harg7.read_unread]

/-- A core's first step (case A): the step first stores zero arrays, and the accumulators are the iterates of those. -/
theorem soutA_0 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S8x512 .f32) (harg6 : arg6.IsWhole) (arg7 : Memref sig .tc .vmem S8x128 .f32) (harg7 : arg7.IsWhole) (hc0 : cond0_0 i) (hc1 : ¬cond0_1 i) (x0 : Vec F S4096x512 .f32) (x1 : Vec F S1x4096 .i32) :
    sout0_A_0 c i arg2 harg2 arg3 harg3 arg4 harg4 arg5 harg5 arg6 harg6 arg7 harg7 hc0 hc1 x0 x1 = accS x0 x1 k0_pay1 k0_t1_loop.trips := by
  have hcov := scover0_A_0 c i arg2 harg2 arg3 harg3 arg4 harg4 arg5 harg5 arg6 harg6 arg7 harg7 hc0 hc1 x0 x1
  unfold sout0_A_0
  rw [View.read_writes_eq_canon _ _ _ hcov]
  revert hcov
  unfold kernelRun0_A
  dsimp only
  sl_unfold_run_names
  intro hcov
  rw [← View.read_writes_eq_canon arg6.view arg6.view.junk _ hcov, View.writes_append]
  refine ((pb_read Variants.none none c i arg2 harg2 arg3 harg3 arg4 harg4 arg5 harg5 arg6 harg6 arg7 harg7 (harg2.unread x0) (harg3.unread x1) _ _ _ le_rfl).1).trans ?_
  rw [harg2.read_unread, harg3.read_unread, read_writes_whole_cons arg6.view _ hz2 inb_S8x512_S8x512_0_0]

theorem soutA_1 (c : Dev nD) (i : grid0.Coords) (arg2 : Memref sig .tc .vmem S4096x512 .f32) (harg2 : arg2.IsWhole) (arg3 : Memref sig .tc .vmem S1x4096 .i32) (harg3 : arg3.IsWhole) (arg4 : Memref sig .tc .vmem S1x8x512 .f32) (harg4 : arg4.IsWhole) (arg5 : Memref sig .tc .vmem S1x8x128 .f32) (harg5 : arg5.IsWhole) (arg6 : Memref sig .tc .vmem S8x512 .f32) (harg6 : arg6.IsWhole) (arg7 : Memref sig .tc .vmem S8x128 .f32) (harg7 : arg7.IsWhole) (hc0 : cond0_0 i) (hc1 : ¬cond0_1 i) (x0 : Vec F S4096x512 .f32) (x1 : Vec F S1x4096 .i32) :
    sout0_A_1 c i arg2 harg2 arg3 harg3 arg4 harg4 arg5 harg5 arg6 harg6 arg7 harg7 hc0 hc1 x0 x1 = accC x1 k0_pay2 k0_t1_loop.trips := by
  have hcov := scover0_A_1 c i arg2 harg2 arg3 harg3 arg4 harg4 arg5 harg5 arg6 harg6 arg7 harg7 hc0 hc1 x0 x1
  unfold sout0_A_1
  rw [View.read_writes_eq_canon _ _ _ hcov]
  revert hcov
  unfold kernelRun0_A
  dsimp only
  sl_unfold_run_names
  intro hcov
  rw [← View.read_writes_eq_canon arg7.view arg7.view.junk _ hcov, View.writes_append]
  refine ((pb_read Variants.none none c i arg2 harg2 arg3 harg3 arg4 harg4 arg5 harg5 arg6 harg6 arg7 harg7 (harg2.unread x0) (harg3.unread x1) _ _ _ le_rfl).2).trans ?_
  rw [harg3.read_unread, read_writes_whole_cons arg7.view _ hz2 inb_S8x128_S8x128_0_0]

end Cert.KernelIdeal.Pieces

end
-- ==== Proof.Steps.lean ====
/-
  What the kernel's two carried scratch arrays hold after each grid point, in terms of the point's input blocks and
  of what the previous point left; and what a core's last point leaves in its output blocks.

  The 64 grid points are numbered `t = 32 p + s` (core `p`, step `s`).  At `s = 0` the accumulators restart from
  zero arrays; at every other step they continue from the previous point's; at `s = 31` they are also copied out.
-/
import proofs.«431416_j41403484733685_3_alg».proof.Proof.Pieces

noncomputable section

open Idealize.ShloMosaic Idealize.ShloMosaic.TcCoe Idealize.SL.Sem

namespace Cert.KernelIdeal.Steps

open Cert.KernelIdeal Cert.KernelIdeal.Gen Cert.KernelIdeal.Pieces

variable {F : FTy → Type} [FloatOps F]
variable (m : (ℓ : Loc nD τ sig) → Buf (Elt F) ℓ)

/-- Point `t`'s block of the input and of the class ids, at their literal types. -/
abbrev xblk (c : Dev nD) (t : Fin cfg0.N) : Vec F S4096x512 .f32 := iblk m c 0 t
abbrev tblk (c : Dev nD) (t : Fin cfg0.N) : Vec F S1x4096 .i32 := iblk m c 1 t

/-- A core's first point: the accumulators are the iterates of the zero arrays. -/
theorem scratch_first (c : Dev nD) (t : Fin cfg0.N) (h0 : t.val % 32 = 0) (h1 : ¬t.val % 32 = 31) :
    (outsAt0 m c t.val t.isLt).2.2.1 = accS (xblk m c t) (tblk m c t) k0_pay1 k0_t1_loop.trips
    ∧ (outsAt0 m c t.val t.isLt).2.2.2 = accC (tblk m c t) k0_pay2 k0_t1_loop.trips := by
  rw [outsAt0_A m c t h0 h1]
  dsimp only
  exact ⟨soutA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    soutA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

/-- A middle point: the accumulators continue from the previous point's. -/
theorem scratch_mid (c : Dev nD) (t : Fin cfg0.N) (h0 : ¬t.val % 32 = 0) (h1 : ¬t.val % 32 = 31) :
    (outsAt0 m c t.val t.isLt).2.2.1 = accS (xblk m c t) (tblk m c t) (outsAt0 m c (t.val - 1) (Nat.lt_of_le_of_lt (Nat.sub_le _ _) t.isLt)).2.2.1 k0_t1_loop.trips
    ∧ (outsAt0 m c t.val t.isLt).2.2.2 = accC (tblk m c t) (outsAt0 m c (t.val - 1) (Nat.lt_of_le_of_lt (Nat.sub_le _ _) t.isLt)).2.2.2 k0_t1_loop.trips := by
  rw [outsAt0_B m c t h0 h1]
  dsimp only
  exact ⟨soutB_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    soutB_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- A core's last point: the same, and the output blocks receive the final accumulators. -/
theorem scratch_last (c : Dev nD) (t : Fin cfg0.N) (h0 : ¬t.val % 32 = 0) (h1 : t.val % 32 = 31) :
    (outsAt0 m c t.val t.isLt).2.2.1 = accS (xblk m c t) (tblk m c t) (outsAt0 m c (t.val - 1) (Nat.lt_of_le_of_lt (Nat.sub_le _ _) t.isLt)).2.2.1 k0_t1_loop.trips
    ∧ (outsAt0 m c t.val t.isLt).2.2.2 = accC (tblk m c t) (outsAt0 m c (t.val - 1) (Nat.lt_of_le_of_lt (Nat.sub_le _ _) t.isLt)).2.2.2 k0_t1_loop.trips
    ∧ (outsAt0 m c t.val t.isLt).1 = k0_pay4 (accS (xblk m c t) (tblk m c t) (outsAt0 m c (t.val - 1) (Nat.lt_of_le_of_lt (Nat.sub_le _ _) t.isLt)).2.2.1 k0_t1_loop.trips)
    ∧ (outsAt0 m c t.val t.isLt).2.1 = k0_pay5 (accC (tblk m c t) (outsAt0 m c (t.val - 1) (Nat.lt_of_le_of_lt (Nat.sub_le _ _) t.isLt)).2.2.2 k0_t1_loop.trips) := by
  rw [outsAt0_C m c t h0 h1]
  dsimp only
  exact ⟨soutC_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    soutC_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    outC_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    outC_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

end Cert.KernelIdeal.Steps

end
-- ==== Proof.Spec.lean ====
/-
  The mathematics both programs compute, stated once over the argument arrays and importing neither program.

  For an input `x : [262144, 512]` and class ids `tg : [262144]`:
  * each row `r` of `x` is turned into a softmax row `prob x r j = exp (x r j - M r) / (∑ j', exp (x r j' - M r))` (`probRow` of the row),
    where `M r` is the maximum of row `r` (a fold of `max` from `-∞`);
  * for a class `k` the weight of row `r` is `wt tg k r`, one when `tg r = k` and zero otherwise;
  * `sums x tg k j = ∑ r, wt tg k r * prob x r j` and `cnts tg k = ∑ r, wt tg k r`;
  * the centre of class `k` is `sums x tg k j / max (cnts tg k) 1`;
  * the result is `ε + (1 - mean_j (c0 j - c1 j)^2) + (1 - mean_j (c2 j - c3 j)^2)` of the first four centres
    (`tail`: the host operations both programs end with, as one function of the [5, 512] array of centres).

  The sums over rows are written over natural numbers (`gS`, `gC`: zero from 262144 on) so that sums over
  consecutive ranges of rows join by `Finset.sum_Ico_consecutive`.
-/
import Idealize.ShloMosaic.PureOps.Ideal
import Idealize.ShloMosaic.PureOps.Ideal.Laws
import Idealize.ShloMosaic.Lib.ValueIdx
import Mathlib.Algebra.BigOperators.Intervals
import Mathlib.Algebra.Order.BigOperators.Group.Finset

noncomputable section

namespace Cert.Spec

open Idealize.ShloMosaic Idealize.ShloMosaic.ValueIdx

abbrev SX : Shape := ⟨2, ![262144, 512]⟩
abbrev ST : Shape := ⟨1, ![262144]⟩
abbrev S5x512 : Shape := ⟨2, ![5, 512]⟩
abbrev S1x512 : Shape := ⟨2, ![1, 512]⟩
abbrev S512 : Shape := ⟨1, ![512]⟩
abbrev S_ : Shape := ⟨0, ![]⟩
abbrev S1 : Shape := ⟨1, ![1]⟩

/-! ## The float patterns whose values the proof uses -/

/-- `128.0` denotes the real 128. -/
theorem ofBits_128 : Ideal.ofBits .f32 0x43000000#32 = ((128 : ℝ) : EReal) := by
  simp [Ideal.ofBits, Ideal.ieee, -EReal.coe_mul]; norm_num

/-- `1.0` denotes 1. -/
theorem ofBits_one : Ideal.ofBits .f32 0x3F800000#32 = 1 := by
  simp [Ideal.ofBits, Ideal.ieee, -EReal.coe_mul]; norm_num

/-! ## Softmax rows -/

/-- The seed of a row maximum: the pattern of `-∞`. -/
def negInf : EReal := Ideal.ofBits .f32 0xFF800000#32

/-- The maximum of a row of 512 entries: the fold of `max` from `-∞`. -/
def maxRow (f : Fin 512 → EReal) : EReal := (Finset.univ : Finset (Fin 512)).fold max negInf f

/-- The softmax of a row `f` at column `j`: `exp (f j - M) / ∑ j', exp (f j' - M)`, `M` the row's maximum. -/
def probRow (f : Fin 512 → EReal) (j : Fin 512) : EReal :=
  Ideal.div (Ideal.exp (f j - maxRow f)) (∑ j' : Fin 512, Ideal.exp (f j' - maxRow f))

/-- The softmax of row `r` of `x` at column `j`. -/
def prob (x : SX.Idx → EReal) (r : Fin 262144) (j : Fin 512) : EReal := probRow (fun j' => x (ix2 r j')) j

/-- One when the class id `t` is `k`, else zero. -/
def hit (t : BitVec 32) (k : ℕ) : EReal := if t = BitVec.ofNat 32 k then 1 else 0

/-- The weight of row `r` for class `k`: one when the row's class id is `k`, else zero. -/
def wt (tg : ST.Idx → BitVec 32) (k : ℕ) (r : Fin 262144) : EReal := hit (tg (ix1 r)) k

/-- Row `n`'s term of the class sum, as a function on all natural numbers (zero past the last row). -/
def gS (x : SX.Idx → EReal) (tg : ST.Idx → BitVec 32) (k : ℕ) (j : Fin 512) (n : ℕ) : EReal :=
  if h : n < 262144 then wt tg k ⟨n, h⟩ * prob x ⟨n, h⟩ j else 0

/-- Row `n`'s term of the class count. -/
def gC (tg : ST.Idx → BitVec 32) (k : ℕ) (n : ℕ) : EReal :=
  if h : n < 262144 then wt tg k ⟨n, h⟩ else 0

/-- The class sums and counts over rows `lo ≤ n < hi`. -/
def sumsOn (x : SX.Idx → EReal) (tg : ST.Idx → BitVec 32) (k : ℕ) (j : Fin 512) (lo hi : ℕ) : EReal :=
  ∑ n ∈ Finset.Ico lo hi, gS x tg k j n
def cntsOn (tg : ST.Idx → BitVec 32) (k : ℕ) (lo hi : ℕ) : EReal :=
  ∑ n ∈ Finset.Ico lo hi, gC tg k n

theorem sumsOn_append (x : SX.Idx → EReal) (tg : ST.Idx → BitVec 32) (k : ℕ) (j : Fin 512) {a b c : ℕ} (hab : a ≤ b) (hbc : b ≤ c) :
    sumsOn x tg k j a b + sumsOn x tg k j b c = sumsOn x tg k j a c :=
  Finset.sum_Ico_consecutive _ hab hbc
theorem cntsOn_append (tg : ST.Idx → BitVec 32) (k : ℕ) {a b c : ℕ} (hab : a ≤ b) (hbc : b ≤ c) :
    cntsOn tg k a b + cntsOn tg k b c = cntsOn tg k a c :=
  Finset.sum_Ico_consecutive _ hab hbc
theorem sumsOn_self (x : SX.Idx → EReal) (tg : ST.Idx → BitVec 32) (k : ℕ) (j : Fin 512) (a : ℕ) : sumsOn x tg k j a a = 0 := by
  unfold sumsOn; rw [Finset.Ico_self, Finset.sum_empty]
theorem cntsOn_self (tg : ST.Idx → BitVec 32) (k : ℕ) (a : ℕ) : cntsOn tg k a a = 0 := by
  unfold cntsOn; rw [Finset.Ico_self, Finset.sum_empty]

/-- A range of `N` consecutive rows from `a`, as a sum over `Fin N`. -/
theorem sum_Ico_eq_sum_fin (g : ℕ → EReal) (a N : ℕ) : ∑ n ∈ Finset.Ico a (a + N), g n = ∑ q : Fin N, g (a + q.val) := by
  rw [Finset.sum_Ico_eq_sum_range, Nat.add_sub_cancel_left, Fin.sum_univ_eq_sum_range (fun q => g (a + q))]

/-- The class sums and counts over all rows. -/
def sums (x : SX.Idx → EReal) (tg : ST.Idx → BitVec 32) (k : ℕ) (j : Fin 512) : EReal := sumsOn x tg k j 0 262144
def cnts (tg : ST.Idx → BitVec 32) (k : ℕ) : EReal := cntsOn tg k 0 262144

/-- Over all rows the sum is a sum over the row index. -/
theorem sums_eq (x : SX.Idx → EReal) (tg : ST.Idx → BitVec 32) (k : ℕ) (j : Fin 512) :
    sums x tg k j = ∑ r : Fin 262144, wt tg k r * prob x r j := by
  unfold sums sumsOn
  refine (sum_Ico_eq_sum_fin (gS x tg k j) 0 262144).trans ?_
  exact Finset.sum_congr rfl fun q _ => by
    unfold gS; rw [dif_pos (by rw [Nat.zero_add]; exact q.isLt)]
    have : (⟨0 + q.val, by rw [Nat.zero_add]; exact q.isLt⟩ : Fin 262144) = q := Fin.ext (Nat.zero_add _)
    rw [this]
theorem cnts_eq (tg : ST.Idx → BitVec 32) (k : ℕ) : cnts tg k = ∑ r : Fin 262144, wt tg k r := by
  unfold cnts cntsOn
  refine (sum_Ico_eq_sum_fin (gC tg k) 0 262144).trans ?_
  exact Finset.sum_congr rfl fun q _ => by
    unfold gC; rw [dif_pos (by rw [Nat.zero_add]; exact q.isLt)]
    have : (⟨0 + q.val, by rw [Nat.zero_add]; exact q.isLt⟩ : Fin 262144) = q := Fin.ext (Nat.zero_add _)
    rw [this]

/-- The centre of class `i 0` at column `i 1`. -/
def center (x : SX.Idx → EReal) (tg : ST.Idx → BitVec 32) (i : S5x512.Idx) : EReal :=
  Ideal.div (sums x tg (i 0).val (i 1)) (max (cnts tg (i 0).val) (Ideal.ofBits .f32 0x3F800000#32))

/-! ## The mean over 128 equal lanes -/

/-- Summing 128 copies of `c` from zero and dividing by `128.0` gives `c` back, on every extended real. -/
theorem mean128 (c : EReal) : Ideal.div (0 + ∑ _l : Fin 128, c) (Ideal.ofBits .f32 0x43000000#32) = c := by
  rw [ofBits_128, Ideal.div_coe (by norm_num : (128 : ℝ) ≠ 0), zero_add, Finset.sum_const, Finset.card_univ, Fintype.card_fin,
    EReal.nsmul_eq_mul]
  have h128 : ((128 : ℕ) : EReal) = ((128 : ℝ) : EReal) := by norm_cast
  rw [h128, mul_comm ((128 : ℝ) : EReal) c, mul_assoc, ← EReal.coe_mul]
  norm_num

/-! ## The host operations both programs end with -/

/-- The shape relations the tail's operations take. -/
structure TailFacts : Prop where
  s0 : S5x512.Slices ![0, 0] S1x512
  s1 : S5x512.Slices ![1, 0] S1x512
  s2 : S5x512.Slices ![2, 0] S1x512
  s3 : S5x512.Slices ![3, 0] S1x512
  c : S1x512.ShapeCasts S512
  r : S512.ReducesTo [0] S_
  p : 0 < S_.numel
  c1 : S_.ShapeCasts S1

/-- They hold: each is a decidable statement about literal shapes. -/
theorem tailFacts : TailFacts := ⟨by decide, by decide, by decide, by decide, by decide, by decide, by decide, by decide⟩

variable {F : FTy → Type} [FloatOps F]

/-- From the [5, 512] array of centres to the result: rows 0..3, the two mean squared differences, and
    `ε + (1 - mse01) + (1 - mse23)`, as the programs' host operations spell it. -/
def tail (h : TailFacts) (cen : FVec F S5x512 .f32) : FVec F S1 .f32 :=
  shapeCast _ (addf (addf (constant S_ .f32 0x322BCC77#32) (subf (constant S_ .f32 0x3F800000#32)
      (Host.divf (Host.reduceAdd (mulf (subf (shapeCast _ (extractStridedSlice S1x512 ![0, 0] cen h.s0) h.c) (shapeCast _ (extractStridedSlice S1x512 ![1, 0] cen h.s1) h.c))
          (subf (shapeCast _ (extractStridedSlice S1x512 ![0, 0] cen h.s0) h.c) (shapeCast _ (extractStridedSlice S1x512 ![1, 0] cen h.s1) h.c)))
        (constant S_ .f32 0x00000000#32) h.r h.p) (constant S_ .f32 0x44000000#32))))
    (subf (constant S_ .f32 0x3F800000#32)
      (Host.divf (Host.reduceAdd (mulf (subf (shapeCast _ (extractStridedSlice S1x512 ![2, 0] cen h.s2) h.c) (shapeCast _ (extractStridedSlice S1x512 ![3, 0] cen h.s3) h.c))
          (subf (shapeCast _ (extractStridedSlice S1x512 ![2, 0] cen h.s2) h.c) (shapeCast _ (extractStridedSlice S1x512 ![3, 0] cen h.s3) h.c)))
        (constant S_ .f32 0x00000000#32) h.r h.p) (constant S_ .f32 0x44000000#32)))) h.c1

/-- What both programs return. -/
def result (x : SX.Idx → EReal) (tg : ST.Idx → BitVec 32) : FVec Ideal S1 .f32 :=
  tail (F := Ideal) tailFacts (center x tg)

end Cert.Spec

end
-- ==== Proof.Payload.lean ====
/-
  The kernel body's arithmetic read at an index, at the ideal instance.

  For a chunk `X : [1024, 512]` of input rows, the chunk's class ids `T : [1, 1024]` and an accumulator `a : [8, 512]`,
  the new accumulator at class `kk` and column `j` is `a kk j + ∑ q, hit (T q) kk * softmax (row q of X) j`: the one-hot
  matrix of the ids (a compare with the column of class ids 0..7, widened to 0/1) times the softmax rows, added to
  what the accumulator held.  The count accumulator gains `∑ q, hit (T q) kk` on every lane.
-/
import proofs.«431416_j41403484733685_3_alg».proof.Proof.Spec
import proofs.«431416_j41403484733685_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen

/-! ## The one-hot matrix of the ids -/

/-- The column of class ids broadcast along the lanes reads the class id. -/
theorem bcast_iota_apply (kk : Fin 8) (q : Fin 1024) :
    broadcastTo S8x1024 (iota .tc S8x1 32 [0] iota_S8x1_d0_w32) broadcasts_S8x1_S8x1024 (ix2 kk q) = BitVec.ofNat 32 kk.val := by
  refine (broadcastTo_apply _ broadcasts_S8x1_S8x1024 (ix2 kk q) (ix2 kk (0 : Fin 1)) ?_).trans ?_
  · intro a
    match a with
    | ⟨0, _⟩ => rfl
    | ⟨1, _⟩ => rfl
  · exact iota_single_apply .tc S8x1 32 0 iota_S8x1_d0_w32 (ix2 kk (0 : Fin 1))

/-- The row of ids broadcast down the classes reads the id of the lane. -/
theorem bcast_ids_apply (T : Vec Ideal S1x1024 .i32) (kk : Fin 8) (q : Fin 1024) :
    broadcastTo S8x1024 T broadcasts_S1x1024_S8x1024 (ix2 kk q) = T (ix2 0 q) := by
  refine broadcastTo_apply _ broadcasts_S1x1024_S8x1024 (ix2 kk q) (ix2 (0 : Fin 1) q) ?_
  intro a
  match a with
  | ⟨0, _⟩ => rfl
  | ⟨1, _⟩ => rfl

/-- The one-hot bit at class kk and chunk row q: the compare of the class id with the row's id. -/
theorem pay6_apply (T : Vec Ideal S1x1024 .i32) (kk : Fin 8) (q : Fin 1024) :
    k0_pay6 (F := Ideal) (iota .tc S8x1 32 [0] iota_S8x1_d0_w32) T (ix2 kk q)
      = IntOp.cmpi .eq (BitVec.ofNat 32 kk.val) (T (ix2 0 q)) := by
  unfold k0_pay6
  rw [shapeCast_self]
  show IntOp.cmpi .eq _ _ = _
  rw [bcast_iota_apply, bcast_ids_apply]

/-- The compare's bit, widened and converted, is the 0/1 weight of the class. -/
theorem onehot_val (k : ℕ) (t : BitVec 32) :
    FloatOps.sitofp (F := Ideal) .f32 ((IntOp.cmpi .eq (BitVec.ofNat 32 k) t).setWidth 32) = Cert.Spec.hit t k := by
  show ((((IntOp.cmpi .eq (BitVec.ofNat 32 k) t).setWidth 32).toInt : ℝ) : EReal) = _
  unfold Cert.Spec.hit IntOp.cmpi
  by_cases h : t = BitVec.ofNat 32 k
  · subst h
    rw [if_pos rfl]
    have e : (BitVec.ofNat 32 k == BitVec.ofNat 32 k) = true := by simp
    rw [e]
    have : ((BitVec.ofBool true).setWidth 32).toInt = 1 := by decide
    rw [this]; norm_num
  · rw [if_neg h]
    have e : (BitVec.ofNat 32 k == t) = false := by
      rw [beq_eq_false_iff_ne]; exact fun h' => h h'.symm
    rw [e]
    have : ((BitVec.ofBool false).setWidth 32).toInt = 0 := by decide
    rw [this]; norm_num

/-- The one-hot matrix as floats, at class kk and chunk row q. -/
theorem onehot_apply (T : Vec Ideal S1x1024 .i32) (kk : Fin 8) (q : Fin 1024) :
    (sitofp (F := Ideal) .f32 (extui 32 (k0_pay6 (F := Ideal) (iota .tc S8x1 32 [0] iota_S8x1_d0_w32) T) natLt_1_32) : FVec Ideal S8x1024 .f32) (ix2 kk q)
      = Cert.Spec.hit (T (ix2 0 q)) kk.val := by
  rw [sitofp_apply, extui_apply, pay6_apply]
  exact onehot_val kk.val (T (ix2 0 q))

/-! ## The softmax of a block row -/

/-- A per-row value, made a column and broadcast along the row, reads the row's value. -/
theorem col_bcast_apply {α : Type} (V : S1024.Idx → α) (q : Fin 1024) (j : Fin 512) :
    broadcastTo S1024x512 (shapeCast S1024x1 V shapeCasts_S1024_S1024x1) broadcasts_S1024x1_S1024x512 (ix2 q j) = V (ix1 q) := by
  refine (broadcastTo_apply _ broadcasts_S1024x1_S1024x512 (ix2 q j) (ix2 q (0 : Fin 1)) ?_).trans ?_
  · intro a
    match a with
    | ⟨0, _⟩ => rfl
    | ⟨1, _⟩ => rfl
  · refine shapeCast_apply V _ _ _ ?_
    rw [Shape.rowMajor_val_one, Shape.rowMajor_val_two]
    show q.val = q.val * 1 + 0
    omega

/-- The index a reduction over the columns inserts. -/
theorem lift_row (q : Fin 1024) (k : Fin 512) :
    reduces_S1024x512_S1024.lift (ix1 q) k = ix2 q k := by
  funext a
  match a with
  | ⟨0, _⟩ => exact Fin.ext rfl
  | ⟨1, _⟩ => exact Fin.ext rfl

/-- The row maximum of a block. -/
theorem rowmax_apply (X : Vec Ideal S1024x512 .f32) (q : Fin 1024) :
    multiReduction (F := Ideal) .maximumf [1] S1024 X 0xFF800000#32 reduces_S1024x512_S1024 (.inl rfl) rfl (ix1 q)
      = Cert.Spec.maxRow (fun j' => X (ix2 q j')) := by
  refine (Ideal.multiReduction_maximumf_single X _ reduces_S1024x512_S1024 (.inl rfl) rfl (ix1 q)).trans ?_
  unfold Cert.Spec.maxRow Cert.Spec.negInf
  have hf : (X ∘ reduces_S1024x512_S1024.lift (ix1 q)) = fun j' : Fin 512 => X (ix2 q j') :=
    funext fun k => congrArg X (lift_row q k)
  rw [hf]
  rfl

/-- The row sum of a block. -/
theorem rowsum_apply (E : FVec Ideal S1024x512 .f32) (q : Fin 1024) :
    multiReduction (F := Ideal) .add [1] S1024 E 0x00000000#32 reduces_S1024x512_S1024 (.inl rfl) rfl (ix1 q)
      = ∑ j' : Fin 512, E (ix2 q j') := by
  refine (Ideal.multiReduction_add_single E _ reduces_S1024x512_S1024 (.inl rfl) rfl (ix1 q)).trans ?_
  exact Finset.sum_congr rfl fun k _ => congrArg E (lift_row q k)

/-- The chunk's softmax at row q and column j. -/
theorem softmax_apply (X : Vec Ideal S1024x512 .f32) (q : Fin 1024) (j : Fin 512) :
    divf (F := Ideal) (exp (subf X (broadcastTo S1024x512 (shapeCast S1024x1 (multiReduction (F := Ideal) .maximumf [1] S1024 X 0xFF800000#32 reduces_S1024x512_S1024 (.inl rfl) rfl) shapeCasts_S1024_S1024x1) broadcasts_S1024x1_S1024x512)))
      (broadcastTo S1024x512 (shapeCast S1024x1 (multiReduction (F := Ideal) .add [1] S1024 (exp (subf X (broadcastTo S1024x512 (shapeCast S1024x1 (multiReduction (F := Ideal) .maximumf [1] S1024 X 0xFF800000#32 reduces_S1024x512_S1024 (.inl rfl) rfl) shapeCasts_S1024_S1024x1) broadcasts_S1024x1_S1024x512))) 0x00000000#32 reduces_S1024x512_S1024 (.inl rfl) rfl) shapeCasts_S1024_S1024x1) broadcasts_S1024x1_S1024x512) (ix2 q j)
      = Cert.Spec.probRow (fun j' => X (ix2 q j')) j := by
  have hE : ∀ j' : Fin 512, (exp (F := Ideal) (subf X (broadcastTo S1024x512 (shapeCast S1024x1 (multiReduction (F := Ideal) .maximumf [1] S1024 X 0xFF800000#32 reduces_S1024x512_S1024 (.inl rfl) rfl) shapeCasts_S1024_S1024x1) broadcasts_S1024x1_S1024x512)) : FVec Ideal S1024x512 .f32) (ix2 q j')
      = Ideal.exp (X (ix2 q j') - Cert.Spec.maxRow (fun j'' => X (ix2 q j''))) := by
    intro j'
    show Ideal.exp (X (ix2 q j') - _) = _
    rw [col_bcast_apply, rowmax_apply]
  show Ideal.div _ _ = _
  unfold Cert.Spec.probRow
  rw [hE j, col_bcast_apply, rowsum_apply]
  exact congrArg _ (Finset.sum_congr rfl fun j' _ => hE j')

/-! ## The product with the one-hot matrix -/

/-- The kernel's [8, 1024] x [1024, 512] product into the zero accumulator, at class kk and column j:
    the sum over the chunk's rows of the products of the entries. -/
theorem mm_apply (A : FVec Ideal S8x1024 .bf16) (B : FVec Ideal S1024x512 .bf16) (kk : Fin 8) (j : Fin 512) :
    FloatOps.matmul dot_S8x1024_S1024x512_S8x512_1_0_0_1_n_n none A B (constant (F := Ideal) S8x512 .f32 0x00000000#32) (ix2 kk j)
      = ∑ q : Fin 1024, A (ix2 kk q) * B (ix2 q j) := by
  refine (Ideal.matmul_constant_zero_apply dot_S8x1024_S1024x512_S8x512_1_0_0_1_n_n none A B (ix2 kk j)).trans ?_
  refine (Equiv.sum_comp (contrEquiv1 dot_S8x1024_S1024x512_S8x512_1_0_0_1_n_n 1024 rfl rfl).symm _).symm.trans ?_
  refine Finset.sum_congr rfl fun q _ => ?_
  have cq := contrEquiv1_symm_val dot_S8x1024_S1024x512_S8x512_1_0_0_1_n_n 1024 rfl rfl q
  have hl : dot_S8x1024_S1024x512_S8x512_1_0_0_1_n_n.lhsIdx (ix2 kk j) ((contrEquiv1 _ 1024 rfl rfl).symm q) = ix2 kk q := by
    funext ax; apply Fin.ext
    match ax with
    | ⟨0, _⟩ => rfl
    | ⟨1, _⟩ => exact (DotDims.lhsIdx_val_of_single _ rfl (ix2 kk j) _).trans cq
  have hr : dot_S8x1024_S1024x512_S8x512_1_0_0_1_n_n.rhsIdx (ix2 kk j) ((contrEquiv1 _ 1024 rfl rfl).symm q) = ix2 q j := by
    funext ax; apply Fin.ext
    match ax with
    | ⟨0, _⟩ => exact (DotDims.rhsIdx_val_of_single _ rfl (ix2 kk j) _).trans cq
    | ⟨1, _⟩ => rfl
  rw [hl, hr]

/-! ## The class counts -/

/-- The index a reduction over the lanes of the one-hot matrix inserts. -/
theorem lift_lane (kk : Fin 8) (q : Fin 1024) :
    reduces_S8x1024_S8.lift (ix1 kk) q = ix2 kk q := by
  funext a
  match a with
  | ⟨0, _⟩ => exact Fin.ext rfl
  | ⟨1, _⟩ => exact Fin.ext rfl

/-- A per-class value, made a column and broadcast along 128 lanes, reads the class's value. -/
theorem cls_bcast_apply {α : Type} (V : S8.Idx → α) (kk : Fin 8) (l : Fin 128) :
    broadcastTo S8x128 (shapeCast S8x1 (shapeCast S8x1 V shapeCasts_S8_S8x1) shapeCasts_S8x1_S8x1) broadcasts_S8x1_S8x128 (ix2 kk l) = V (ix1 kk) := by
  rw [shapeCast_self]
  refine (broadcastTo_apply _ broadcasts_S8x1_S8x128 (ix2 kk l) (ix2 kk (0 : Fin 1)) ?_).trans ?_
  · intro a
    match a with
    | ⟨0, _⟩ => rfl
    | ⟨1, _⟩ => rfl
  · refine shapeCast_apply V _ _ _ ?_
    rw [Shape.rowMajor_val_one, Shape.rowMajor_val_two]
    show kk.val = kk.val * 1 + 0
    omega

/-! ## The six reads the certificate cites -/

/-- The accumulator of class sums after one chunk. -/
theorem pay7_apply (X : Vec Ideal S1024x512 .f32) (T : Vec Ideal S1x1024 .i32) (a : Vec Ideal S8x512 .f32) (kk : Fin 8) (j : Fin 512) :
    k0_pay7 (F := Ideal) (iota .tc S8x1 32 [0] iota_S8x1_d0_w32) X T a (ix2 kk j)
      = a (ix2 kk j) + ∑ q : Fin 1024, Cert.Spec.hit (T (ix2 0 q)) kk.val * Cert.Spec.probRow (fun j' => X (ix2 q j')) j := by
  unfold k0_pay7
  rw [shapeCast_self]
  refine congrArg (a (ix2 kk j) + ·) ?_
  refine (mm_apply _ _ kk j).trans ?_
  refine Finset.sum_congr rfl fun q _ => ?_
  exact congrArg₂ (· * ·) (onehot_apply T kk q) (softmax_apply X q j)

/-- The accumulator of class counts after one chunk, on every lane. -/
theorem pay38_apply (T : Vec Ideal S1x1024 .i32) (b : Vec Ideal S8x128 .f32) (kk : Fin 8) (l : Fin 128) :
    k0_pay3 (F := Ideal) (k0_pay8 (F := Ideal) (iota .tc S8x1 32 [0] iota_S8x1_d0_w32) T b) (ix2 kk l)
      = b (ix2 kk l) + ∑ q : Fin 1024, Cert.Spec.hit (T (ix2 0 q)) kk.val := by
  unfold k0_pay3 k0_pay8
  rw [shapeCast_self]
  refine congrArg (b (ix2 kk l) + ·) ?_
  refine (cls_bcast_apply _ kk l).trans ?_
  refine (Ideal.multiReduction_add_single _ _ reduces_S8x1024_S8 (.inl rfl) rfl (ix1 kk)).trans ?_
  refine Finset.sum_congr rfl fun q _ => ?_
  exact (congrArg _ (lift_lane kk q)).trans (onehot_apply T kk q)

/-- The zero arrays a core's first step stores. -/
theorem pay1_apply (i : S8x512.Idx) : k0_pay1 (F := Ideal) i = 0 := by
  unfold k0_pay1
  rw [shapeCast_self]
  exact Ideal.ofBits_zero_f32
theorem pay2_apply (i : S8x128.Idx) : k0_pay2 (F := Ideal) i = 0 := by
  unfold k0_pay2
  rw [shapeCast_self]
  exact Ideal.ofBits_zero_f32

/-- The output blocks are the accumulators with a leading unit axis. -/
theorem pay4_apply (v : Vec Ideal S8x512 .f32) (p : Fin 1) (kk : Fin 8) (j : Fin 512) : k0_pay4 (F := Ideal) v (ix3 p kk j) = v (ix2 kk j) := by
  unfold k0_pay4
  refine shapeCast_apply v _ _ _ ?_
  rw [Shape.rowMajor_val_two, Shape.rowMajor_val_three]
  have hp : p.val = 0 := by omega
  show kk.val * 512 + j.val = (p.val * 8 + kk.val) * 512 + j.val
  rw [hp]; omega
theorem pay5_apply (v : Vec Ideal S8x128 .f32) (p : Fin 1) (kk : Fin 8) (l : Fin 128) : k0_pay5 (F := Ideal) v (ix3 p kk l) = v (ix2 kk l) := by
  unfold k0_pay5
  refine shapeCast_apply v _ _ _ ?_
  rw [Shape.rowMajor_val_two, Shape.rowMajor_val_three]
  have hp : p.val = 0 := by omega
  show kk.val * 128 + l.val = (p.val * 8 + kk.val) * 128 + l.val
  rw [hp]; omega

end Cert.KernelIdeal.Payload

end
-- ==== Proof.Invariant.lean ====
/-
  What the kernel's scratch arrays and output arrays hold, as sums over rows of the input.

  Grid point `t` (`0 ≤ t < 64`) consumes rows `4096 t ≤ n < 4096 (t + 1)` of the input and of the class ids, in four
  chunks of 1024 rows.  By the body's arithmetic each chunk adds to the [8, 512] accumulator the class sums over the
  chunk's rows, and to the [8, 128] accumulator the class counts over them; so after point `t = 32 p + s` the
  accumulators hold the class sums and counts over rows `131072 p ≤ n < 4096 (t + 1)` — by induction on the point,
  the sums over consecutive ranges of rows joining.  At a core's last point this is the core's half of the rows.
-/
import proofs.«431416_j41403484733685_3_alg».proof.Proof.Steps
import proofs.«431416_j41403484733685_3_alg».proof.Proof.Payload
import proofs.«431416_j41403484733685_3_alg».proof.Proof.Spec
import Idealize.ShloMosaic.Lib.StableHlo.Run

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Pieces Cert.KernelIdeal.Steps Cert.KernelIdeal.Payload
open Cert.Spec (sumsOn cntsOn gS gC hit wt prob probRow)

variable (m : (ℓ : Loc nD τ sig) → Buf (Elt Ideal) ℓ)

/-- The input and the class ids as launched. -/
abbrev xarr (c : Dev nD) : Vec Ideal S262144x512 .f32 := m ((c : Thread nD τ).loc main_arg0)
abbrev tarr (c : Dev nD) : Vec Ideal S262144 .i32 := m ((c : Thread nD τ).loc main_arg1)

/-! ## The blocks and chunks as rows of the arrays -/

/-- The input's block index at point `t` is `(t, 0)`; the ids' is `(0, t)`. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = t.val :=
  (by decide +kernel : ∀ t : Fin grid0.N, win0_1.index t 0 = 0 ∧ win0_1.index t 1 = t.val)

/-- Chunk `k` starts at row `1024 k`. -/
theorem off1 : ∀ k : Fin k0_t1_loop.trips, k0_off1 k 0 = 1024 * k.val ∧ k0_off1 k 1 = 0 := by decide +kernel
theorem off2 : ∀ k : Fin k0_t1_loop.trips, k0_off2 k 0 = 0 ∧ k0_off2 k 1 = 1024 * k.val := by decide +kernel

/-- Row `r` of point `t`'s input block is row `4096 t + r` of the input. -/
theorem xblk_apply (c : Dev nD) (t : Fin cfg0.N) (r : Fin 4096) (j : Fin 512) (h : 4096 * t.val + r.val < 262144) :
    xblk m c t (ix2 r j) = xarr m c (ix2 ⟨4096 * t.val + r.val, h⟩ j) := by
  unfold xblk iblk
  rw [View.read_apply]
  show V m c main_arg0 _ = _
  rw [V_main_arg0 m c]
  refine congrArg (m ((c : Thread nD τ).loc main_arg0)) (funext fun a => Fin.ext ?_)
  match a with
  | ⟨0, _⟩ => show win0_0.index t 0 * 4096 + 1 * r.val = 4096 * t.val + r.val; rw [(index0 t).1]; omega
  | ⟨1, _⟩ => show win0_0.index t 1 * 512 + 1 * j.val = j.val; rw [(index0 t).2]; omega

/-- The ids the region finds are the launched ids laid out as one row. -/
theorem V_main_v0 (c : Dev nD) :
    (V m c main_v0 : S1x262144.Idx → BitVec 32) = shapeCast S1x262144 (tarr m c) shapeCasts_S262144_S1x262144 := by
  show StableHlo.after hostOps0 (fun b => m (c, b)) (Proc.devRef .tc main_v0) = _
  after_results
  rfl

/-- Entry `q` of point `t`'s block of ids is the id of row `4096 t + q`. -/
theorem tblk_apply (c : Dev nD) (t : Fin cfg0.N) (q : Fin 4096) (h : 4096 * t.val + q.val < 262144) :
    tblk m c t (ix2 0 q) = tarr m c (ix1 ⟨4096 * t.val + q.val, h⟩) := by
  unfold tblk iblk
  rw [View.read_apply]
  show V m c main_v0 _ = _
  rw [V_main_v0 m c]
  refine (shapeCast_apply (tarr m c) shapeCasts_S262144_S1x262144 _ (ix1 ⟨4096 * t.val + q.val, h⟩) ?_)
  rw [Shape.rowMajor_val_two, Shape.rowMajor_val_one]
  show 4096 * t.val + q.val = (win0_1.index t 0 * 1 + 1 * 0) * 262144 + (win0_1.index t 1 * 4096 + 1 * q.val)
  rw [(index1 t).1, (index1 t).2]; omega

/-- Row `q` of chunk `k` is row `1024 k + q` of the block. -/
theorem chunkX_apply (X : Vec Ideal S4096x512 .f32) (k : Fin k0_t1_loop.trips) (q : Fin 1024) (j : Fin 512) (h : 1024 * k.val + q.val < 4096) :
    chunkX X k (ix2 q j) = X (ix2 ⟨1024 * k.val + q.val, h⟩ j) := by
  unfold chunkX
  refine congrArg X (funext fun a => Fin.ext ?_)
  match a with
  | ⟨0, _⟩ => show k0_off1 k 0 + 1 * q.val = 1024 * k.val + q.val; rw [(off1 k).1]; omega
  | ⟨1, _⟩ => show k0_off1 k 1 + 1 * j.val = j.val; rw [(off1 k).2]; omega

theorem chunkT_apply (T : Vec Ideal S1x4096 .i32) (k : Fin k0_t1_loop.trips) (q : Fin 1024) (h : 1024 * k.val + q.val < 4096) :
    chunkT T k (ix2 0 q) = T (ix2 0 ⟨1024 * k.val + q.val, h⟩) := by
  unfold chunkT
  refine congrArg T (funext fun a => Fin.ext ?_)
  match a with
  | ⟨0, _⟩ => show k0_off2 k 0 + 1 * 0 = 0; rw [(off2 k).1]
  | ⟨1, _⟩ => show k0_off2 k 1 + 1 * q.val = 1024 * k.val + q.val; rw [(off2 k).2]; omega

theorem trip_lt (k : Fin k0_t1_loop.trips) : k.val < 4 := lt_of_lt_of_eq k.isLt trips_eq
theorem point_lt (t : Fin cfg0.N) : t.val < 64 := lt_of_lt_of_eq t.isLt (show cfg0.N = 64 from N_0)

/-- Row `q` of chunk `k` of point `t` is row `4096 t + 1024 k + q` of the input, and likewise for the ids. -/
theorem chunkX_row (c : Dev nD) (t : Fin cfg0.N) (k : Fin k0_t1_loop.trips) (q : Fin 1024) (j : Fin 512)
    (h : 4096 * t.val + 1024 * k.val + q.val < 262144) :
    chunkX (xblk m c t) k (ix2 q j) = xarr m c (ix2 ⟨4096 * t.val + 1024 * k.val + q.val, h⟩ j) := by
  have hk := trip_lt k
  have h1 : 1024 * k.val + q.val < 4096 := by have := q.isLt; omega
  rw [chunkX_apply _ k q j h1, xblk_apply m c t ⟨1024 * k.val + q.val, h1⟩ j (by show 4096 * t.val + (1024 * k.val + q.val) < 262144; omega)]
  exact congrArg (fun r => xarr m c (ix2 r j)) (Fin.ext (by show 4096 * t.val + (1024 * k.val + q.val) = 4096 * t.val + 1024 * k.val + q.val; omega))

theorem chunkT_row (c : Dev nD) (t : Fin cfg0.N) (k : Fin k0_t1_loop.trips) (q : Fin 1024)
    (h : 4096 * t.val + 1024 * k.val + q.val < 262144) :
    chunkT (tblk m c t) k (ix2 0 q) = tarr m c (ix1 ⟨4096 * t.val + 1024 * k.val + q.val, h⟩) := by
  have hk := trip_lt k
  have h1 : 1024 * k.val + q.val < 4096 := by have := q.isLt; omega
  rw [chunkT_apply _ k q h1, tblk_apply m c t ⟨1024 * k.val + q.val, h1⟩ (by show 4096 * t.val + (1024 * k.val + q.val) < 262144; omega)]
  exact congrArg (fun r => tarr m c (ix1 r)) (Fin.ext (by show 4096 * t.val + (1024 * k.val + q.val) = 4096 * t.val + 1024 * k.val + q.val; omega))

/-! ## One chunk's contribution -/

/-- The one-hot matrix of chunk `k`'s ids times the chunk's softmax rows is the class sums over the chunk's rows. -/
theorem chunk_sums (c : Dev nD) (t : Fin cfg0.N) (k : Fin k0_t1_loop.trips) (kk : Fin 8) (j : Fin 512) :
    ∑ q : Fin 1024, hit (chunkT (tblk m c t) k (ix2 0 q)) kk.val * probRow (fun j' => chunkX (xblk m c t) k (ix2 q j')) j
      = sumsOn (xarr m c) (tarr m c) kk.val j (4096 * t.val + 1024 * k.val) (4096 * t.val + 1024 * k.val + 1024) := by
  have hk := trip_lt k
  have ht := point_lt t
  unfold sumsOn
  rw [Cert.Spec.sum_Ico_eq_sum_fin]
  refine Finset.sum_congr rfl fun q _ => ?_
  have hrow : 4096 * t.val + 1024 * k.val + q.val < 262144 := by have := q.isLt; omega
  unfold gS
  rw [dif_pos hrow]
  unfold wt prob
  rw [chunkT_row m c t k q hrow]
  exact congrArg (fun f => hit (tarr m c (ix1 ⟨4096 * t.val + 1024 * k.val + q.val, hrow⟩)) kk.val * probRow f j)
    (funext fun j' => chunkX_row m c t k q j' hrow)

/-- The one-hot matrix of chunk `k`'s ids summed over the chunk is the class counts over the chunk's rows. -/
theorem chunk_cnts (c : Dev nD) (t : Fin cfg0.N) (k : Fin k0_t1_loop.trips) (kk : Fin 8) :
    ∑ q : Fin 1024, hit (chunkT (tblk m c t) k (ix2 0 q)) kk.val
      = cntsOn (tarr m c) kk.val (4096 * t.val + 1024 * k.val) (4096 * t.val + 1024 * k.val + 1024) := by
  have hk := trip_lt k
  have ht := point_lt t
  unfold cntsOn
  rw [Cert.Spec.sum_Ico_eq_sum_fin]
  refine Finset.sum_congr rfl fun q _ => ?_
  have hrow : 4096 * t.val + 1024 * k.val + q.val < 262144 := by have := q.isLt; omega
  unfold gC
  rw [dif_pos hrow]
  unfold wt
  rw [chunkT_row m c t k q hrow]

/-! ## The accumulators after `n` chunks of a point -/

theorem accS_rows (c : Dev nD) (t : Fin cfg0.N) (a : Vec Ideal S8x512 .f32) :
    ∀ n, n ≤ k0_t1_loop.trips → ∀ (kk : Fin 8) (j : Fin 512),
      accS (xblk m c t) (tblk m c t) a n (ix2 kk j)
        = a (ix2 kk j) + sumsOn (xarr m c) (tarr m c) kk.val j (4096 * t.val) (4096 * t.val + 1024 * n)
  | 0, _, kk, j => by
    rw [Nat.mul_zero, Nat.add_zero, Cert.Spec.sumsOn_self, add_zero]; rfl
  | n + 1, hn, kk, j => by
    have hlt : n < k0_t1_loop.trips := hn
    have hc : ∑ q : Fin 1024, hit (chunkT (tblk m c t) ⟨n, hlt⟩ (ix2 0 q)) kk.val * probRow (fun j' => chunkX (xblk m c t) ⟨n, hlt⟩ (ix2 q j')) j
        = sumsOn (xarr m c) (tarr m c) kk.val j (4096 * t.val + 1024 * n) (4096 * t.val + 1024 * n + 1024) := chunk_sums m c t ⟨n, hlt⟩ kk j
    rw [accS_succ _ _ _ n hlt, pay7_apply, accS_rows c t a n (Nat.le_of_lt hlt) kk j, hc, add_assoc,
      Cert.Spec.sumsOn_append _ _ _ _ (by omega) (by omega)]
    exact congrArg (fun b => a (ix2 kk j) + sumsOn (xarr m c) (tarr m c) kk.val j (4096 * t.val) b) (by show 4096 * t.val + 1024 * n + 1024 = 4096 * t.val + 1024 * (n + 1); omega)

theorem accC_rows (c : Dev nD) (t : Fin cfg0.N) (b : Vec Ideal S8x128 .f32) :
    ∀ n, n ≤ k0_t1_loop.trips → ∀ (kk : Fin 8) (l : Fin 128),
      accC (tblk m c t) b n (ix2 kk l)
        = b (ix2 kk l) + cntsOn (tarr m c) kk.val (4096 * t.val) (4096 * t.val + 1024 * n)
  | 0, _, kk, l => by
    rw [Nat.mul_zero, Nat.add_zero, Cert.Spec.cntsOn_self, add_zero]; rfl
  | n + 1, hn, kk, l => by
    have hlt : n < k0_t1_loop.trips := hn
    have hc : ∑ q : Fin 1024, hit (chunkT (tblk m c t) ⟨n, hlt⟩ (ix2 0 q)) kk.val
        = cntsOn (tarr m c) kk.val (4096 * t.val + 1024 * n) (4096 * t.val + 1024 * n + 1024) := chunk_cnts m c t ⟨n, hlt⟩ kk
    rw [accC_succ _ _ n hlt, pay38_apply, accC_rows c t b n (Nat.le_of_lt hlt) kk l, hc, add_assoc,
      Cert.Spec.cntsOn_append _ _ (by omega) (by omega)]
    exact congrArg (fun e => b (ix2 kk l) + cntsOn (tarr m c) kk.val (4096 * t.val) e) (by show 4096 * t.val + 1024 * n + 1024 = 4096 * t.val + 1024 * (n + 1); omega)

/-- After all four chunks: the point's 4096 rows. -/
theorem accS_point (c : Dev nD) (t : Fin cfg0.N) (a : Vec Ideal S8x512 .f32) (kk : Fin 8) (j : Fin 512) :
    accS (xblk m c t) (tblk m c t) a k0_t1_loop.trips (ix2 kk j)
      = a (ix2 kk j) + sumsOn (xarr m c) (tarr m c) kk.val j (4096 * t.val) (4096 * (t.val + 1)) := by
  rw [accS_rows m c t a _ le_rfl kk j, trips_eq]
  exact congrArg (fun b => a (ix2 kk j) + sumsOn (xarr m c) (tarr m c) kk.val j (4096 * t.val) b) (by omega)

theorem accC_point (c : Dev nD) (t : Fin cfg0.N) (b : Vec Ideal S8x128 .f32) (kk : Fin 8) (l : Fin 128) :
    accC (tblk m c t) b k0_t1_loop.trips (ix2 kk l)
      = b (ix2 kk l) + cntsOn (tarr m c) kk.val (4096 * t.val) (4096 * (t.val + 1)) := by
  rw [accC_rows m c t b _ le_rfl kk l, trips_eq]
  exact congrArg (fun e => b (ix2 kk l) + cntsOn (tarr m c) kk.val (4096 * t.val) e) (by omega)

/-- The same with the point given by its number. -/
theorem accS_point' (c : Dev nD) (n : ℕ) (h : n < cfg0.N) (a : Vec Ideal S8x512 .f32) (kk : Fin 8) (j : Fin 512) :
    accS (xblk m c ⟨n, h⟩) (tblk m c ⟨n, h⟩) a k0_t1_loop.trips (ix2 kk j)
      = a (ix2 kk j) + sumsOn (xarr m c) (tarr m c) kk.val j (4096 * n) (4096 * (n + 1)) := accS_point m c ⟨n, h⟩ a kk j
theorem accC_point' (c : Dev nD) (n : ℕ) (h : n < cfg0.N) (b : Vec Ideal S8x128 .f32) (kk : Fin 8) (l : Fin 128) :
    accC (tblk m c ⟨n, h⟩) b k0_t1_loop.trips (ix2 kk l)
      = b (ix2 kk l) + cntsOn (tarr m c) kk.val (4096 * n) (4096 * (n + 1)) := accC_point m c ⟨n, h⟩ b kk l

/-! ## The accumulators after each grid point -/

/-- After point `n = 32 p + s` the accumulators hold the class sums and counts over rows `131072 p ≤ r < 4096 (n + 1)`. -/
theorem scratch_rows (c : Dev nD) : ∀ (n : ℕ) (h : n < cfg0.N),
    (∀ (kk : Fin 8) (j : Fin 512), (outsAt0 m c n h).2.2.1 (ix2 kk j)
        = sumsOn (xarr m c) (tarr m c) kk.val j (131072 * (n / 32)) (4096 * (n + 1)))
    ∧ (∀ (kk : Fin 8) (l : Fin 128), (outsAt0 m c n h).2.2.2 (ix2 kk l)
        = cntsOn (tarr m c) kk.val (131072 * (n / 32)) (4096 * (n + 1)))
  | 0, h => by
    obtain ⟨e1, e2⟩ := scratch_first m c ⟨0, h⟩ rfl (by show ¬0 % 32 = 31; decide)
    refine ⟨fun kk j => ?_, fun kk l => ?_⟩
    · rw [show (outsAt0 m c 0 h).2.2.1 = _ from e1, accS_point' m c 0 h, pay1_apply, zero_add]
    · rw [show (outsAt0 m c 0 h).2.2.2 = _ from e2, accC_point' m c 0 h, pay2_apply, zero_add]
  | n + 1, h => by
    have hN : n + 1 < 64 := lt_of_lt_of_eq h (show cfg0.N = 64 from N_0)
    obtain ⟨ih1, ih2⟩ := scratch_rows c n (Nat.lt_of_succ_lt h)
    by_cases h0 : (n + 1) % 32 = 0
    · have h1 : ¬(n + 1) % 32 = 31 := by omega
      obtain ⟨e1, e2⟩ := scratch_first m c ⟨n + 1, h⟩ h0 h1
      have hb : 131072 * ((n + 1) / 32) = 4096 * (n + 1) := by omega
      refine ⟨fun kk j => ?_, fun kk l => ?_⟩
      · rw [show (outsAt0 m c (n + 1) h).2.2.1 = _ from e1, accS_point' m c (n + 1) h, pay1_apply, zero_add, hb]
      · rw [show (outsAt0 m c (n + 1) h).2.2.2 = _ from e2, accC_point' m c (n + 1) h, pay2_apply, zero_add, hb]
    · have hb : 131072 * ((n + 1) / 32) = 131072 * (n / 32) := by omega
      have hstep : ∀ (a : Vec Ideal S8x512 .f32) (b : Vec Ideal S8x128 .f32),
          (outsAt0 m c (n + 1) h).2.2.1 = accS (xblk m c ⟨n + 1, h⟩) (tblk m c ⟨n + 1, h⟩) (outsAt0 m c n (Nat.lt_of_succ_lt h)).2.2.1 k0_t1_loop.trips
          ∧ (outsAt0 m c (n + 1) h).2.2.2 = accC (tblk m c ⟨n + 1, h⟩) (outsAt0 m c n (Nat.lt_of_succ_lt h)).2.2.2 k0_t1_loop.trips := by
        intro _ _
        by_cases h1 : (n + 1) % 32 = 31
        · exact ⟨(scratch_last m c ⟨n + 1, h⟩ h0 h1).1, (scratch_last m c ⟨n + 1, h⟩ h0 h1).2.1⟩
        · exact scratch_mid m c ⟨n + 1, h⟩ h0 h1
      obtain ⟨e1, e2⟩ := hstep (fun _ => 0) (fun _ => 0)
      refine ⟨fun kk j => ?_, fun kk l => ?_⟩
      · rw [e1, accS_point' m c (n + 1) h, ih1 kk j, hb]
        exact Cert.Spec.sumsOn_append _ _ _ _ (by omega) (by omega)
      · rw [e2, accC_point' m c (n + 1) h, ih2 kk l, hb]
        exact Cert.Spec.cntsOn_append _ _ (by omega) (by omega)

/-! ## The output blocks at a core's last point -/

/-- At core `p`'s last point its output blocks hold the class sums and counts over the core's half of the rows. -/
theorem out2_rows (c : Dev nD) (t : Fin cfg0.N) (h1 : t.val % 32 = 31) (p : Fin 1) (kk : Fin 8) (j : Fin 512) :
    (outsAt0 m c t.val t.isLt).1 (ix3 p kk j)
      = sumsOn (xarr m c) (tarr m c) kk.val j (131072 * (t.val / 32)) (131072 * (t.val / 32 + 1)) := by
  have h0 : ¬t.val % 32 = 0 := by omega
  obtain ⟨e1, -, e3, -⟩ := scratch_last m c t h0 h1
  rw [e3, ← e1, pay4_apply, (scratch_rows m c t.val t.isLt).1 kk j]
  exact congrArg (sumsOn (xarr m c) (tarr m c) kk.val j (131072 * (t.val / 32))) (by omega)

theorem out3_rows (c : Dev nD) (t : Fin cfg0.N) (h1 : t.val % 32 = 31) (p : Fin 1) (kk : Fin 8) (l : Fin 128) :
    (outsAt0 m c t.val t.isLt).2.1 (ix3 p kk l)
      = cntsOn (tarr m c) kk.val (131072 * (t.val / 32)) (131072 * (t.val / 32 + 1)) := by
  have h0 : ¬t.val % 32 = 0 := by omega
  obtain ⟨-, e2, -, e4⟩ := scratch_last m c t h0 h1
  rw [e4, ← e2, pay5_apply, (scratch_rows m c t.val t.isLt).2 kk l]
  exact congrArg (cntsOn (tarr m c) kk.val (131072 * (t.val / 32))) (by omega)

end Cert.KernelIdeal.Inv

end
-- ==== Proof.KernelTail.lean ====
/-
  The kernel's host operations after the region, as one function of the two arrays the region leaves, and its value.

  The region leaves `P2 : [2, 8, 512]` (per core, the class sums over that core's half of the rows) and
  `P3 : [2, 8, 128]` (per core, the class counts over that half, repeated on 128 lanes).  The host adds the two
  cores, takes the mean of the counts over the 128 equal lanes (which gives the count back), divides the sums by
  `max count 1`, keeps the first five classes and ends with the shared tail.  Since the two halves of the rows join,
  the [5, 512] array that enters the tail is the specification's array of centres.
-/
import proofs.«431416_j41403484733685_3_alg».proof.Proof.Spec
import proofs.«431416_j41403484733685_3_alg».proof.Proof.Gen.KernelIdeal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Tail

open Cert.KernelIdeal Cert.KernelIdeal.Gen

/-- The [5, 512] array of centres as the kernel's host operations compute it from the region's two arrays. -/
def centers {F : FTy → Type} [FloatOps F] (P2 : FVec F S2x8x512 .f32) (P3 : FVec F S2x8x128 .f32) : FVec F S5x512 .f32 :=
  extractStridedSlice S5x512 ![0, 0]
    (Host.divf (Host.reduceAdd P2 (constant S_ .f32 0x00000000#32) reducesTo_S2x8x512_S8x512_d0 h_S_)
      (broadcastInDim S8x512 ![0, 1] bcast_S8x1_S8x512_0_1 (broadcastInDim S8x1 ![0] bcast_S8_S8x1_0
        (maximumf (Host.divf (Host.reduceAdd (Host.reduceAdd P3 (constant S_ .f32 0x00000000#32) reducesTo_S2x8x128_S8x128_d0 h_S_)
            (constant S_ .f32 0x00000000#32) reducesTo_S8x128_S8_d1 h_S_) (broadcastInDim S8 ![] bcast_S_S8 (constant S_ .f32 0x43000000#32)))
          (broadcastInDim S8 ![] bcast_S_S8 (constant S_ .f32 0x3F800000#32))))))
    slices_S8x512_S5x512_0_0

/-- The kernel's result as a function of the region's two arrays. -/
def hostTail {F : FTy → Type} [FloatOps F] (P2 : FVec F S2x8x512 .f32) (P3 : FVec F S2x8x128 .f32) : FVec F S1 .f32 :=
  Cert.Spec.tail Cert.Spec.tailFacts (centers P2 P3)

/-! ## Each host operation read at an index

One small statement per operation, over explicit coordinates: class `k`, column `j`, lane `l`. -/

/-- The initial value of every sum here is the pattern of zero, which denotes 0. -/
theorem zeroInit : (constant (F := Ideal) S_ .f32 0x00000000#32) (Shape.Idx.first h_S_) = 0 := by
  show FloatOps.ofBits (F := Ideal) .f32 0x00000000#32 = 0
  rw [Ideal.ofBits_def, Ideal.ofBits_zero_f32]

/-- The sum over the two cores of a [2, 8, 512] array at (k, j) is core 0's entry plus core 1's. -/
theorem coreSum2 (P2 : FVec Ideal S2x8x512 .f32) (k : Fin 8) (j : Fin 512) :
    Host.reduceAdd P2 (constant (F := Ideal) S_ .f32 0x00000000#32) reducesTo_S2x8x512_S8x512_d0 h_S_ (ix2 k j)
      = P2 (ix3 0 k j) + P2 (ix3 1 k j) := by
  simp only [Host.reduceAdd, Ideal.hostReduceAdd_def]
  rw [Ideal.hostReduceAdd_single reducesTo_S2x8x512_S8x512_d0 (by decide), zeroInit, zero_add]
  refine (Fin.sum_univ_two _).trans ?_
  congr 1 <;> exact congrArg P2 (funext fun a => Fin.ext (by match a with | ⟨0, _⟩ => rfl | ⟨1, _⟩ => rfl | ⟨2, _⟩ => rfl))

/-- The same for a [2, 8, 128] array at (k, l). -/
theorem coreSum3 (P3 : FVec Ideal S2x8x128 .f32) (k : Fin 8) (l : Fin 128) :
    Host.reduceAdd P3 (constant (F := Ideal) S_ .f32 0x00000000#32) reducesTo_S2x8x128_S8x128_d0 h_S_ (ix2 k l)
      = P3 (ix3 0 k l) + P3 (ix3 1 k l) := by
  simp only [Host.reduceAdd, Ideal.hostReduceAdd_def]
  rw [Ideal.hostReduceAdd_single reducesTo_S2x8x128_S8x128_d0 (by decide), zeroInit, zero_add]
  refine (Fin.sum_univ_two _).trans ?_
  congr 1 <;> exact congrArg P3 (funext fun a => Fin.ext (by match a with | ⟨0, _⟩ => rfl | ⟨1, _⟩ => rfl | ⟨2, _⟩ => rfl))

/-- The sum over the 128 lanes of an [8, 128] array at class k: zero plus the sum of row k's entries. -/
theorem laneSum (Q : FVec Ideal S8x128 .f32) (k : Fin 8) :
    Host.reduceAdd Q (constant (F := Ideal) S_ .f32 0x00000000#32) reducesTo_S8x128_S8_d1 h_S_ (ix1 k)
      = 0 + ∑ l : Fin 128, Q (ix2 k l) := by
  simp only [Host.reduceAdd, Ideal.hostReduceAdd_def]
  rw [Ideal.hostReduceAdd_single reducesTo_S8x128_S8_d1 (by decide), zeroInit]
  refine congrArg (_ + ·) (Finset.sum_congr rfl fun l _ => ?_)
  exact congrArg Q (funext fun a => Fin.ext (by match a with | ⟨0, _⟩ => rfl | ⟨1, _⟩ => rfl))

/-- A scalar constant broadcast to 8 entries is that constant's value at every entry. -/
theorem bcastScalar (b : BitVec 32) (i : S8.Idx) :
    broadcastInDim S8 ![] bcast_S_S8 (constant (F := Ideal) S_ .f32 b) i = Ideal.ofBits .f32 b := rfl

/-- An 8-vector broadcast first to a column [8, 1] and then along the 512 columns reads, at (k, j), its entry k. -/
theorem bcastCol (y : FVec Ideal S8 .f32) (k : Fin 8) (j : Fin 512) :
    broadcastInDim S8x512 ![0, 1] bcast_S8x1_S8x512_0_1 (broadcastInDim S8x1 ![0] bcast_S8_S8x1_0 y) (ix2 k j) = y (ix1 k) := by
  refine (broadcastInDim_apply _ bcast_S8x1_S8x512_0_1 _ (ix2 k j) (ix2 k 0) (fun a => match a with
    | ⟨0, _⟩ => by show k.val = if (8 : Nat) = 1 then 0 else k.val; rw [if_neg (by decide)]
    | ⟨1, _⟩ => by show 0 = if (1 : Nat) = 1 then 0 else j.val; rw [if_pos rfl])).trans ?_
  exact broadcastInDim_apply _ bcast_S8_S8x1_0 y (ix2 k 0) (ix1 k) (fun a => match a with
    | ⟨0, _⟩ => by show k.val = if (8 : Nat) = 1 then 0 else k.val; rw [if_neg (by decide)])

/-- The first five rows of an [8, 512] array: the entry at (k, j) is the array's at (k, j), k read among the 8 rows. -/
theorem sliceRows (y : FVec Ideal S8x512 .f32) (k : Fin 5) (j : Fin 512) :
    extractStridedSlice S5x512 ![0, 0] y slices_S8x512_S5x512_0_0 (ix2 k j) = y (ix2 ⟨k.val, by omega⟩ j) := by
  exact extractStridedSlice_apply ![0, 0] y slices_S8x512_S5x512_0_0 (ix2 k j) (ix2 ⟨k.val, by omega⟩ j) (fun a => match a with
    | ⟨0, _⟩ => by show k.val = 0 + k.val; omega
    | ⟨1, _⟩ => by show j.val = 0 + j.val; omega)

/-- With the region's arrays holding, per core `p`, the class sums and counts over rows `131072 p ≤ n < 131072 (p + 1)`,
    the centres are the specification's. -/
theorem centers_eq (P2 : FVec Ideal S2x8x512 .f32) (P3 : FVec Ideal S2x8x128 .f32)
    (x : Cert.Spec.SX.Idx → EReal) (tg : Cert.Spec.ST.Idx → BitVec 32)
    (h2 : ∀ (p : Fin 2) (kk : Fin 8) (j : Fin 512), P2 (ix3 p kk j) = Cert.Spec.sumsOn x tg kk.val j (p.val * 131072) ((p.val + 1) * 131072))
    (h3 : ∀ (p : Fin 2) (kk : Fin 8) (l : Fin 128), P3 (ix3 p kk l) = Cert.Spec.cntsOn tg kk.val (p.val * 131072) ((p.val + 1) * 131072)) :
    centers (F := Ideal) P2 P3 = Cert.Spec.center x tg := by
  funext i
  obtain ⟨k, j, rfl⟩ : ∃ (k : Fin 5) (j : Fin 512), i = ix2 k j := ⟨i 0, i 1, eq_ix2 i⟩
  have hk8 : k.val < 8 := by omega
  -- the numerator: the two cores' sums over the two halves of the rows join to the sum over all rows
  have hA : Host.reduceAdd P2 (constant (F := Ideal) S_ .f32 0x00000000#32) reducesTo_S2x8x512_S8x512_d0 h_S_ (ix2 ⟨k.val, hk8⟩ j)
      = Cert.Spec.sums x tg k.val j := by
    have e0 : P2 (ix3 0 ⟨k.val, hk8⟩ j) = Cert.Spec.sumsOn x tg k.val j 0 131072 := h2 0 ⟨k.val, hk8⟩ j
    have e1 : P2 (ix3 1 ⟨k.val, hk8⟩ j) = Cert.Spec.sumsOn x tg k.val j 131072 262144 := h2 1 ⟨k.val, hk8⟩ j
    rw [coreSum2, e0, e1]
    exact Cert.Spec.sumsOn_append x tg k.val j (by norm_num) (by norm_num)
  -- the counts: the two cores' counts join to the count over all rows, the same on every lane
  have hQ : ∀ l : Fin 128, Host.reduceAdd P3 (constant (F := Ideal) S_ .f32 0x00000000#32) reducesTo_S2x8x128_S8x128_d0 h_S_ (ix2 ⟨k.val, hk8⟩ l)
      = Cert.Spec.cnts tg k.val := by
    intro l
    have e0 : P3 (ix3 0 ⟨k.val, hk8⟩ l) = Cert.Spec.cntsOn tg k.val 0 131072 := h3 0 ⟨k.val, hk8⟩ l
    have e1 : P3 (ix3 1 ⟨k.val, hk8⟩ l) = Cert.Spec.cntsOn tg k.val 131072 262144 := h3 1 ⟨k.val, hk8⟩ l
    rw [coreSum3, e0, e1]
    exact Cert.Spec.cntsOn_append tg k.val (by norm_num) (by norm_num)
  -- the mean over the 128 equal lanes gives the count back
  have hM : Host.divf (Host.reduceAdd (Host.reduceAdd P3 (constant (F := Ideal) S_ .f32 0x00000000#32) reducesTo_S2x8x128_S8x128_d0 h_S_)
            (constant S_ .f32 0x00000000#32) reducesTo_S8x128_S8_d1 h_S_) (broadcastInDim S8 ![] bcast_S_S8 (constant S_ .f32 0x43000000#32))
          (ix1 ⟨k.val, hk8⟩) = Cert.Spec.cnts tg k.val := by
    show Ideal.div _ (Ideal.ofBits .f32 0x43000000#32) = _
    rw [laneSum, Finset.sum_congr rfl (fun l _ => hQ l)]
    exact Cert.Spec.mean128 _
  -- the slice reads row k of the quotient; its denominator is the larger of the count and one
  unfold centers
  refine (sliceRows _ k j).trans ?_
  show Ideal.div _ _ = Ideal.div (Cert.Spec.sums x tg k.val j) (max (Cert.Spec.cnts tg k.val) (Ideal.ofBits .f32 0x3F800000#32))
  rw [hA, bcastCol]
  show Ideal.div _ (max _ (Ideal.ofBits .f32 0x3F800000#32)) = _
  rw [hM]

/-- So the kernel's result is the specification's. -/
theorem hostTail_eq (P2 : FVec Ideal S2x8x512 .f32) (P3 : FVec Ideal S2x8x128 .f32)
    (x : Cert.Spec.SX.Idx → EReal) (tg : Cert.Spec.ST.Idx → BitVec 32)
    (h2 : ∀ (p : Fin 2) (kk : Fin 8) (j : Fin 512), P2 (ix3 p kk j) = Cert.Spec.sumsOn x tg kk.val j (p.val * 131072) ((p.val + 1) * 131072))
    (h3 : ∀ (p : Fin 2) (kk : Fin 8) (l : Fin 128), P3 (ix3 p kk l) = Cert.Spec.cntsOn tg kk.val (p.val * 131072) ((p.val + 1) * 131072)) :
    hostTail (F := Ideal) P2 P3 = Cert.Spec.result x tg := by
  unfold hostTail Cert.Spec.result
  rw [centers_eq P2 P3 x tg h2 h3]

end Cert.KernelIdeal.Tail

end
-- ==== Proof.KernelValue.lean ====
/-
  The kernel's run, read: the two arrays the region leaves, and the result.

  Core `p`'s output blocks are written back once, after the core's last grid point, when they hold the class sums and
  counts over the core's half of the rows; the two cores' blocks tile the [2, 8, 512] and [2, 8, 128] arrays.  The
  host operations after the region then give the specification's result.
-/
import proofs.«431416_j41403484733685_3_alg».proof.Proof.Invariant
import proofs.«431416_j41403484733685_3_alg».proof.Proof.KernelTail

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Inv
open Cert.Spec (sumsOn cntsOn)

variable (m : (ℓ : Loc nD τ sig) → Buf (Elt Ideal) ℓ) (ρ : Dev nD → PrngReg)

/-- What the region leaves in its first output array: at `(p, k, j)` the class-`k` sum of column `j` over core `p`'s rows. -/
def sumsArr (c : Dev nD) : S2x8x512.Idx → EReal := fun i =>
  sumsOn (xarr m c) (tarr m c) (i 1).val ⟨(i 2).val, (i 2).isLt⟩ (131072 * (i 0).val) (131072 * ((i 0).val + 1))

/-- And in its second: at `(p, k, l)` the class-`k` count over core `p`'s rows, on every lane `l`. -/
def cntsArr (c : Dev nD) : S2x8x128.Idx → EReal := fun i =>
  cntsOn (tarr m c) (i 1).val (131072 * (i 0).val) (131072 * ((i 0).val + 1))

theorem sumsArr_of (c : Dev nD) (i : S2x8x512.Idx) (p : ℕ) (kk : Fin 8) (j : Fin 512)
    (h0 : (i 0).val = p) (h1 : (i 1).val = kk.val) (h2 : (i 2).val = j.val) :
    sumsArr m c i = sumsOn (xarr m c) (tarr m c) kk.val j (131072 * p) (131072 * (p + 1)) := by
  unfold sumsArr
  have hj : (⟨(i 2).val, (i 2).isLt⟩ : Fin 512) = j := Fin.ext h2
  rw [hj, h0, h1]

theorem cntsArr_of (c : Dev nD) (i : S2x8x128.Idx) (p : ℕ) (kk : Fin 8)
    (h0 : (i 0).val = p) (h1 : (i 1).val = kk.val) :
    cntsArr m c i = cntsOn (tarr m c) kk.val (131072 * p) (131072 * (p + 1)) := by
  unfold cntsArr
  rw [h0, h1]

/-- The output blocks' index at point `t` is `(t / 32, 0, 0)`. -/
theorem index2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)
theorem index3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- What a core's last point writes back is its block of `sumsArr`. -/
theorem flushed2 (c : Dev nD) (t : Fin cfg0.N) (hf : (cfg0.win 2).flush t = true) :
    (dats m 0 c).flushed 2 t = ((cfg0.win 2).blk t).view.read (Elt Ideal) (sumsArr m c) := by
  have h31 := (flush0_2 t).mp hf
  show (cfg0.win 2).cut (grid0.coords t) ((dats m 0 c).after 2 t) = _
  rw [after0_2]
  funext y
  obtain ⟨p, kk, j, rfl⟩ : ∃ (p : Fin 1) (kk : Fin 8) (j : Fin 512), y = ix3 p kk j := ⟨y 0, y 1, y 2, eq_ix3 y⟩
  show (outsAt0 m c t.val t.isLt).1 (ix3 p kk j) = sumsArr m c (((cfg0.win 2).blk t).view.emb (ix3 p kk j))
  rw [out2_rows m c t h31 p kk j]
  obtain ⟨e0, e1, e2⟩ := index2 t
  refine (sumsArr_of m c _ (t.val / 32) kk j ?_ ?_ ?_).symm
  · show win0_2.index t 0 * 1 + 1 * p.val = t.val / 32; rw [e0]; have := p.isLt; omega
  · show win0_2.index t 1 * 8 + 1 * kk.val = kk.val; rw [e1]; omega
  · show win0_2.index t 2 * 512 + 1 * j.val = j.val; rw [e2]; omega

theorem flushed3 (c : Dev nD) (t : Fin cfg0.N) (hf : (cfg0.win 3).flush t = true) :
    (dats m 0 c).flushed 3 t = ((cfg0.win 3).blk t).view.read (Elt Ideal) (cntsArr m c) := by
  have h31 := (flush0_3 t).mp hf
  show (cfg0.win 3).cut (grid0.coords t) ((dats m 0 c).after 3 t) = _
  rw [after0_3]
  funext y
  obtain ⟨p, kk, l, rfl⟩ : ∃ (p : Fin 1) (kk : Fin 8) (l : Fin 128), y = ix3 p kk l := ⟨y 0, y 1, y 2, eq_ix3 y⟩
  show (outsAt0 m c t.val t.isLt).2.1 (ix3 p kk l) = cntsArr m c (((cfg0.win 3).blk t).view.emb (ix3 p kk l))
  rw [out3_rows m c t h31 p kk l]
  obtain ⟨e0, e1, e2⟩ := index3 t
  refine (cntsArr_of m c _ (t.val / 32) kk ?_ ?_).symm
  · show win0_3.index t 0 * 1 + 1 * p.val = t.val / 32; rw [e0]; have := p.isLt; omega
  · show win0_3.index t 1 * 8 + 1 * kk.val = kk.val; rw [e1]; omega

/-- An index of the array is in point `t`'s block iff each coordinate is in the block's range on its axis. -/
theorem mem_blk2 (t : Fin cfg0.N) (i : S2x8x512.Idx) :
    i ∈ ((cfg0.win 2).blk t).view.set ↔ ∀ a : Fin 3, win0_2.index t a * S1x8x512.size a ≤ (i a).val ∧ (i a).val < win0_2.index t a * S1x8x512.size a + S1x8x512.size a := by
  show i ∈ ((View.whole main_v1_0).slice (win0_2.rect t)).set ↔ _
  rw [View.set_slice_whole, Rect.mem_set_unit]
  exact Iff.rfl
theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v1_1).slice (win0_3.rect t)).set ↔ _
  rw [View.set_slice_whole, Rect.mem_set_unit]
  exact Iff.rfl

/-- Core `p`'s last point, `32 p + 31`, writes back the block that holds index `(p, k, j)`. -/
theorem cover2 (i : S2x8x512.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 512 := (i 2).isLt
  have hN : 32 * (i 0).val + 31 < cfg0.N := lt_of_lt_of_eq (by omega) (show cfg0.N = 64 from N_0).symm
  refine ⟨⟨32 * (i 0).val + 31, hN⟩, (flush0_2 _).mpr (by show (32 * (i 0).val + 31) % 32 = 31; omega), ?_⟩
  rw [mem_blk2]
  obtain ⟨e0, e1, e2⟩ := index2 ⟨32 * (i 0).val + 31, hN⟩
  have e0' : win0_2.index ⟨32 * (i 0).val + 31, hN⟩ 0 = (32 * (i 0).val + 31) / 32 := e0
  intro a
  match a with
  | ⟨0, _⟩ => show win0_2.index ⟨32 * (i 0).val + 31, hN⟩ 0 * 1 ≤ (i 0).val ∧ (i 0).val < win0_2.index ⟨32 * (i 0).val + 31, hN⟩ 0 * 1 + 1; rw [e0']; omega
  | ⟨1, _⟩ => show win0_2.index ⟨32 * (i 0).val + 31, hN⟩ 1 * 8 ≤ (i 1).val ∧ (i 1).val < win0_2.index ⟨32 * (i 0).val + 31, hN⟩ 1 * 8 + 8; rw [e1]; omega
  | ⟨2, _⟩ => show win0_2.index ⟨32 * (i 0).val + 31, hN⟩ 2 * 512 ≤ (i 2).val ∧ (i 2).val < win0_2.index ⟨32 * (i 0).val + 31, hN⟩ 2 * 512 + 512; rw [e2]; omega

theorem cover3 (i : S2x8x128.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  have hN : 32 * (i 0).val + 31 < cfg0.N := lt_of_lt_of_eq (by omega) (show cfg0.N = 64 from N_0).symm
  refine ⟨⟨32 * (i 0).val + 31, hN⟩, (flush0_3 _).mpr (by show (32 * (i 0).val + 31) % 32 = 31; omega), ?_⟩
  rw [mem_blk3]
  obtain ⟨e0, e1, e2⟩ := index3 ⟨32 * (i 0).val + 31, hN⟩
  have e0' : win0_3.index ⟨32 * (i 0).val + 31, hN⟩ 0 = (32 * (i 0).val + 31) / 32 := e0
  intro a
  match a with
  | ⟨0, _⟩ => show win0_3.index ⟨32 * (i 0).val + 31, hN⟩ 0 * 1 ≤ (i 0).val ∧ (i 0).val < win0_3.index ⟨32 * (i 0).val + 31, hN⟩ 0 * 1 + 1; rw [e0']; omega
  | ⟨1, _⟩ => show win0_3.index ⟨32 * (i 0).val + 31, hN⟩ 1 * 8 ≤ (i 1).val ∧ (i 1).val < win0_3.index ⟨32 * (i 0).val + 31, hN⟩ 1 * 8 + 8; rw [e1]; omega
  | ⟨2, _⟩ => show win0_3.index ⟨32 * (i 0).val + 31, hN⟩ 2 * 128 ≤ (i 2).val ∧ (i 2).val < win0_3.index ⟨32 * (i 0).val + 31, hN⟩ 2 * 128 + 128; rw [e2]; omega

/-- So the region's two output arrays end holding `sumsArr` and `cntsArr`. -/
theorem final2 (c : Dev nD) : (dats m 0 c).arrAt 2 cfg0.N = sumsArr m c :=
  (dats m 0 c).arrAt_eq_of_cover 2 (sumsArr m c) (flushed2 m c) cover2
theorem final3 (c : Dev nD) : (dats m 0 c).arrAt 3 cfg0.N = cntsArr m c :=
  (dats m 0 c).arrAt_eq_of_cover 3 (cntsArr m c) (flushed3 m c) cover3

/-! ## The host operations after the region, and the run -/

/-- The host operations that follow the region, run from ANY contents `W` of the buffers, leave in the result buffer
    those operations of the two arrays `W` holds for the region's outputs. -/
theorem flatten_one {α : Type} (l : List α) : [l].flatten = l := by
  simp only [List.flatten_cons, List.flatten_nil, List.append_nil]

set_option maxHeartbeats 1600000 in
theorem after_tail (W : Valuation τ sig (Elt Ideal)) :
    StableHlo.after (hostOps1 (F := Ideal)) W (Proc.devRef .tc main_v33)
      = Cert.KernelIdeal.Tail.hostTail (F := Ideal) (W (Proc.devRef .tc main_v1_0)) (W (Proc.devRef .tc main_v1_1)) := by
  after_results
  rfl

/-- The result buffer after the run: the host operations of the region's two final arrays. -/
theorem tail_read (c : Dev nD) :
    Pipeline.afterTail₀ cfgs (dats m) 0 (V0 m) [hostOps1] c main_v33
      = Cert.KernelIdeal.Tail.hostTail (F := Ideal) ((dats m 0 c).arrAt 2 cfg0.N) ((dats m 0 c).arrAt 3 cfg0.N) := by
  unfold Pipeline.afterTail₀
  rw [flatten_one, after_tail]
  exact congrArg₂ (Cert.KernelIdeal.Tail.hostTail (F := Ideal))
    (Pipeline.withArrays_arr spec0 launch0.win.arr_inj c _ _ 2) (Pipeline.withArrays_arr spec0 launch0.win.arr_inj c _ _ 3)

/-- The region's arrays, per core, as the host tail's hypotheses ask. -/
theorem sumsArr_core (c : Dev nD) (p : Fin 2) (kk : Fin 8) (j : Fin 512) :
    sumsArr m c (ix3 p kk j) = sumsOn (xarr m c) (tarr m c) kk.val j (p.val * 131072) ((p.val + 1) * 131072) := by
  rw [sumsArr_of m c (ix3 p kk j) p.val kk j rfl rfl rfl, Nat.mul_comm 131072 p.val, Nat.mul_comm 131072 (p.val + 1)]
theorem cntsArr_core (c : Dev nD) (p : Fin 2) (kk : Fin 8) (l : Fin 128) :
    cntsArr m c (ix3 p kk l) = cntsOn (tarr m c) kk.val (p.val * 131072) ((p.val + 1) * 131072) := by
  rw [cntsArr_of m c (ix3 p kk l) p.val kk rfl rfl, Nat.mul_comm 131072 p.val, Nat.mul_comm 131072 (p.val + 1)]

/-- The kernel's run: every weakly fair execution ends with the result at the specification's value of the launched
    arguments, and the arguments unchanged. -/
theorem run : θ_run defs (onTc (τ := τ) (main (F := Ideal))) ⟨m, fun _ => 0, ρ⟩ fun r => ∀ c : Dev nD,
      r.2.mem ((c.tc : Thread nD τ).loc main_v33) = Cert.Spec.result (xarr m c) (tarr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v33 (Pipeline.mem_restRefs_of main_v33 (by decide) (by decide))).trans ((tail_read m c).trans (by
        rw [final2 m c, final3 m c]
        exact Cert.KernelIdeal.Tail.hostTail_eq _ _ _ _ (sumsArr_core m c) (cntsArr_core m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's result is the specification's.

  The reference computes the softmax rows with a host maximum and a host sum over each row, scatters them by class
  id into a [5, 512] array of zeros (each element plus the sum of the updates landing on it; a row whose id is
  outside 0..4 lands nowhere), scatters ones the same way into five counts, divides the sums by `max count 1`,
  and ends with the shared tail.
-/
import proofs.«431416_j41403484733685_3_alg».proof.Proof.Spec
import proofs.«431416_j41403484733685_3_alg».proof.Proof.Gen.ReferenceIdeal.Read
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.ReferenceIdeal.RefValue

open Cert.ReferenceIdeal Cert.ReferenceIdeal.Gen Cert.ReferenceIdeal.Read

/-! ## Where a scattered update lands -/

/-- An update lands on `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h, Option.some.injEq]
    constructor
    · intro e a
      rw [← e]
      have := (h a).1
      show _ = (((d.start j idx a + d.window j a).toNat : ℕ) : ℤ)
      omega
    · intro h2
      funext a
      apply Fin.ext
      show (d.start j idx a + d.window j a).toNat = (i a).val
      rw [h2 a]; exact Int.toNat_natCast _
  · rw [dif_neg h]
    constructor
    · intro e; cases e
    · intro h2
      exfalso; apply h; intro a
      rw [h2 a]
      exact ⟨Int.natCast_nonneg _, by exact_mod_cast (i a).isLt⟩

abbrev dS := scatter_S5x512_S262144x1_S262144x512_1_0_0_1
abbrev dC := scatter_S5_S262144x1_S262144_n_0_0_1

theorem dS_siIdx (p : Fin 262144) (q : Fin 512) (c : Fin dS.scatterDimsToOperandDims.length) :
    dS.siIdx (ix2 p q) c = ix2 p 0 := by
  funext b
  apply Fin.ext
  match b with
  | ⟨0, _⟩ => rfl
  | ⟨1, _⟩ =>
    show c.val = 0
    have := c.isLt
    change c.val < 1 at this
    omega

theorem dC_siIdx (p : Fin 262144) (c : Fin dC.scatterDimsToOperandDims.length) :
    dC.siIdx (ix1 p) c = ix2 p 0 := by
  funext b
  apply Fin.ext
  match b with
  | ⟨0, _⟩ => rfl
  | ⟨1, _⟩ =>
    show c.val = 0
    have := c.isLt
    change c.val < 1 at this
    omega

theorem dS_start0 (p : Fin 262144) (q : Fin 512) (idx : IVec S262144x1 32) :
    dS.start (ix2 p q) idx 0 = (idx (ix2 p 0)).toInt := by
  unfold ScatterDims.start
  rw [dif_pos (by decide)]
  rw [dS_siIdx]

theorem dS_start1 (p : Fin 262144) (q : Fin 512) (idx : IVec S262144x1 32) :
    dS.start (ix2 p q) idx 1 = 0 := by
  unfold ScatterDims.start
  rw [dif_neg (by decide)]

theorem dS_window0 (p : Fin 262144) (q : Fin 512) : dS.window (ix2 p q) 0 = 0 := by
  unfold ScatterDims.window
  rw [dif_neg (by decide)]

theorem dS_window1 (p : Fin 262144) (q : Fin 512) : dS.window (ix2 p q) 1 = q.val := by
  unfold ScatterDims.window
  rw [dif_pos (by decide)]
  rfl

theorem dC_start0 (p : Fin 262144) (idx : IVec S262144x1 32) :
    dC.start (ix1 p) idx 0 = (idx (ix2 p 0)).toInt := by
  unfold ScatterDims.start
  rw [dif_pos (by decide)]
  rw [dC_siIdx]

theorem dC_window0 (p : Fin 262144) : dC.window (ix1 p) 0 = 0 := by
  unfold ScatterDims.window
  rw [dif_neg (by decide)]

theorem dS_lands (p : Fin 262144) (q : Fin 512) (idx : IVec S262144x1 32) (k : Fin 5) (j : Fin 512) :
    dS.resultIdx? (ix2 p q) idx = some (ix2 k j) ↔ (idx (ix2 p 0)).toInt = (k.val : ℤ) ∧ q = j := by
  rw [resultIdx?_eq_some_iff, Fin.forall_fin_two, dS_start0, dS_start1, dS_window0, dS_window1]
  show (idx (ix2 p 0)).toInt + ((0 : ℕ) : ℤ) = (k.val : ℤ) ∧ (0 : ℤ) + (q.val : ℤ) = (j.val : ℤ) ↔ _
  rw [Fin.ext_iff]
  omega

theorem dC_lands (p : Fin 262144) (idx : IVec S262144x1 32) (k : Fin 5) :
    dC.resultIdx? (ix1 p) idx = some (ix1 k) ↔ (idx (ix2 p 0)).toInt = (k.val : ℤ) := by
  rw [resultIdx?_eq_some_iff]
  constructor
  · intro h
    have := h 0
    rw [dC_start0, dC_window0] at this
    change (idx (ix2 p 0)).toInt + ((0 : ℕ) : ℤ) = (k.val : ℤ) at this
    omega
  · intro h a
    match a with
    | ⟨0, _⟩ =>
      show dC.start (ix1 p) idx 0 + ((dC.window (ix1 p) 0 : ℕ) : ℤ) = (k.val : ℤ)
      rw [dC_start0, dC_window0]
      omega

/-! ## Class ids as signed words -/

/-- A signed 32-bit word is the small number `k` exactly when it is `k`'s pattern. -/
theorem toInt_eq_iff (t : BitVec 32) (k : ℕ) (hk : k < 5) : t.toInt = (k : ℤ) ↔ t = BitVec.ofNat 32 k := by
  constructor
  · intro h
    apply BitVec.eq_of_toNat_eq
    rw [BitVec.toNat_ofNat]
    have h2 := BitVec.toInt_eq_toNat_cond t
    have := t.isLt
    rw [h2] at h
    split at h <;> omega
  · intro h
    rw [h, BitVec.toInt_eq_toNat_cond, BitVec.toNat_ofNat]
    have : k % 2 ^ 32 = k := Nat.mod_eq_of_lt (by omega)
    rw [this, if_pos (by omega)]

theorem v12_at (x1 : (⟨S262144, .i32⟩ : BufTy).Contents (Elt Ideal)) (r : Fin 262144) :
    val_main_v12 (F := Ideal) x1 (ix2 r 0) = x1 (ix1 r) := by
  rw [val_main_v12_apply]
  exact congrArg x1 (funext fun a => by match a with | ⟨0, _⟩ => rfl)

theorem v16_at (x1 : (⟨S262144, .i32⟩ : BufTy).Contents (Elt Ideal)) (r : Fin 262144) :
    val_main_v16 (F := Ideal) x1 (ix2 r 0) = x1 (ix1 r) := by
  rw [val_main_v16_apply]
  exact congrArg x1 (funext fun a => by match a with | ⟨0, _⟩ => rfl)

/-! ## The softmax rows -/

/-- Row `r`'s index with column `k` put back. -/
theorem lift_row (h : S262144x512.Reduces [1] S262144) (r : Fin 262144) (k : Fin (S262144x512.size 1)) :
    h.lift (ix1 r) k = ix2 r (⟨k.val, k.isLt⟩ : Fin 512) := by
  funext c; apply Fin.ext
  fin_cases c <;> rfl

/-- The host's row maximum from `-∞` is the row's maximum. -/
theorem v0_at (x0 : (⟨S262144x512, .f32⟩ : BufTy).Contents (Elt Ideal)) (r : Fin 262144) :
    val_main_v0 (F := Ideal) x0 (ix1 r) = Cert.Spec.maxRow (fun j' => x0 (ix2 r j')) := by
  unfold val_main_v0
  have h : S262144x512.Reduces [1] S262144 := by decide
  refine (Host.reduce_eq_fold_single (α := Ideal .f32) FloatOps.maximumf x0 _ reducesTo_S262144x512_S262144_d1 h h_S_ (ix1 r)).trans ?_
  unfold Cert.Spec.maxRow Cert.Spec.negInf
  have hf : (x0 ∘ h.lift (ix1 r)) = fun k : Fin 512 => x0 (ix2 r k) := funext fun k => congrArg x0 (lift_row h r k)
  exact congrArg (fun f => Finset.fold max (Ideal.ofBits .f32 0xFF800000#32) f (Finset.univ : Finset (Fin 512))) hf

/-- The maximum with `-∞` changes nothing: the fold starts there. -/
theorem v2_at (x0 : (⟨S262144x512, .f32⟩ : BufTy).Contents (Elt Ideal)) (r : Fin 262144) :
    val_main_v2 (F := Ideal) x0 (ix1 r) = Cert.Spec.maxRow (fun j' => x0 (ix2 r j')) := by
  rw [val_main_v2_apply, val_main_v1_apply, val_main_cst_0_apply, v0_at]
  show max Cert.Spec.negInf (Cert.Spec.maxRow _) = _
  exact max_eq_right ((Finset.le_fold_max _).2 (Or.inl le_rfl))

theorem v4_at (x0 : (⟨S262144x512, .f32⟩ : BufTy).Contents (Elt Ideal)) (r : Fin 262144) (j : Fin 512) :
    val_main_v4 (F := Ideal) x0 (ix2 r j) = Cert.Spec.maxRow (fun j' => x0 (ix2 r j')) := by
  rw [val_main_v4_apply, val_main_v3_apply, ← v2_at]
  exact congrArg _ (funext fun a => by match a with | ⟨0, _⟩ => rfl)

theorem v6_at (x0 : (⟨S262144x512, .f32⟩ : BufTy).Contents (Elt Ideal)) (r : Fin 262144) (j : Fin 512) :
    val_main_v6 (F := Ideal) x0 (ix2 r j) = Ideal.exp (x0 (ix2 r j) - Cert.Spec.maxRow (fun j' => x0 (ix2 r j'))) := by
  rw [val_main_v6_apply, val_main_v5_apply, v4_at]
  rfl

theorem v9_at (x0 : (⟨S262144x512, .f32⟩ : BufTy).Contents (Elt Ideal)) (r : Fin 262144) (j : Fin 512) :
    val_main_v9 (F := Ideal) x0 (ix2 r j)
      = ∑ j' : Fin 512, Ideal.exp (x0 (ix2 r j') - Cert.Spec.maxRow (fun j' => x0 (ix2 r j'))) := by
  rw [val_main_v9_apply, val_main_v8_apply, val_main_v7_apply, val_main_cst_1_apply]
  refine (congrArg (· + _) Ideal.ofBits_zero_f32).trans ?_
  rw [zero_add]
  refine Finset.sum_congr rfl fun k _ => ?_
  rw [← v6_at]
  exact congrArg _ (funext fun a => by match a with | ⟨0, _⟩ => rfl | ⟨1, _⟩ => rfl)

/-- The reference's softmax array is the specification's. -/
theorem v10_at (x0 : (⟨S262144x512, .f32⟩ : BufTy).Contents (Elt Ideal)) (r : Fin 262144) (j : Fin 512) :
    val_main_v10 (F := Ideal) x0 (ix2 r j) = Cert.Spec.prob x0 r j := by
  rw [val_main_v10_apply, v6_at, v9_at]
  rfl

/-! ## The two scatters as sums over rows -/

theorem v13_at (x0 : (⟨S262144x512, .f32⟩ : BufTy).Contents (Elt Ideal)) (x1 : (⟨S262144, .i32⟩ : BufTy).Contents (Elt Ideal))
    (k : Fin 5) (j : Fin 512) :
    val_main_v13 (F := Ideal) x0 x1 (ix2 k j)
      = ∑ r : Fin 262144, Cert.Spec.wt x1 k.val r * val_main_v10 (F := Ideal) x0 (ix2 r j) := by
  unfold val_main_v13
  simp only [Host.scatterAdd, Ideal.hostScatterAdd_def]
  unfold Ideal.hostScatterAdd
  generalize val_main_v10 (F := Ideal) x0 = upd
  rw [val_main_v11_apply, val_main_cst_2_apply]
  refine (congrArg (· + _) Ideal.ofBits_zero_f32).trans ?_
  rw [zero_add, Finset.sum_filter, sum_idx2]
  refine Finset.sum_congr rfl fun r _ => ?_
  by_cases hk : x1 (ix1 r) = BitVec.ofNat 32 k.val
  · have hw : Cert.Spec.wt x1 k.val r = 1 := if_pos hk
    rw [hw, one_mul]
    refine (Finset.sum_congr rfl fun q _ => if_congr (Q := q = j) ?_ rfl rfl).trans ?_
    · rw [dS_lands, v12_at, toInt_eq_iff _ _ k.isLt]; exact and_iff_right hk
    · rw [Finset.sum_ite_eq']; exact if_pos (Finset.mem_univ _)
  · have hw : Cert.Spec.wt x1 k.val r = 0 := if_neg hk
    rw [hw, zero_mul]
    exact Finset.sum_eq_zero fun q _ => if_neg (by rw [dS_lands, v12_at, toInt_eq_iff _ _ k.isLt]; exact fun h => hk h.1)

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _ fun i => congrArg f (eq_ix1 i)

theorem v17_at (x1 : (⟨S262144, .i32⟩ : BufTy).Contents (Elt Ideal)) (k : Fin 5) :
    val_main_v17 (F := Ideal) x1 (ix1 k) = ∑ r : Fin 262144, Cert.Spec.wt x1 k.val r := by
  unfold val_main_v17
  simp only [Host.scatterAdd, Ideal.hostScatterAdd_def]
  unfold Ideal.hostScatterAdd
  rw [val_main_v15_apply, val_main_cst_4_apply]
  refine (congrArg (· + _) Ideal.ofBits_zero_f32).trans ?_
  rw [zero_add, Finset.sum_filter, sum_idx1]
  refine Finset.sum_congr rfl fun r _ => ?_
  have h1 : val_main_v14 (F := Ideal) (ix1 r) = 1 := by
    rw [val_main_v14_apply, val_main_cst_3_apply]; exact Cert.Spec.ofBits_one
  by_cases hk : x1 (ix1 r) = BitVec.ofNat 32 k.val
  · have hw : Cert.Spec.wt x1 k.val r = 1 := if_pos hk
    rw [hw, if_pos (by rw [dC_lands, v16_at, toInt_eq_iff _ _ k.isLt]; exact hk), h1]
  · have hw : Cert.Spec.wt x1 k.val r = 0 := if_neg hk
    rw [hw, if_neg (by rw [dC_lands, v16_at, toInt_eq_iff _ _ k.isLt]; exact hk)]

/-! ## The centres -/

/-- The reference's [5, 512] array of centres is the specification's. -/
theorem centers_eq (x0 : (⟨S262144x512, .f32⟩ : BufTy).Contents (Elt Ideal)) (x1 : (⟨S262144, .i32⟩ : BufTy).Contents (Elt Ideal)) :
    val_main_v22 (F := Ideal) x0 x1 = Cert.Spec.center x0 x1 := by
  funext i
  obtain ⟨k, j, rfl⟩ : ∃ (k : Fin 5) (j : Fin 512), i = ix2 k j := ⟨i 0, i 1, eq_ix2 i⟩
  have hn : val_main_v13 (F := Ideal) x0 x1 (ix2 k j) = Cert.Spec.sums x0 x1 k.val j := by
    rw [v13_at, Cert.Spec.sums_eq]
    exact Finset.sum_congr rfl fun r _ => by rw [v10_at]
  have hd : val_main_v21 (F := Ideal) x1 (ix2 k j) = max (Cert.Spec.cnts x1 k.val) (Ideal.ofBits .f32 0x3F800000#32) := by
    rw [val_main_v21_apply, val_main_v20_apply]
    have hi : idx_main_v20 (idx_main_v21 (ix2 k j)) = ix1 k := funext fun a => by match a with | ⟨0, _⟩ => rfl
    rw [hi, val_main_v19_apply, v17_at, val_main_v18_apply, val_main_cst_5_apply, Cert.Spec.cnts_eq]
    rfl
  rw [val_main_v22_apply, hn, hd]
  rfl

/-- From the centres on, the reference's operations are the shared tail. -/
theorem tail_eq (x0 : (⟨S262144x512, .f32⟩ : BufTy).Contents (Elt Ideal)) (x1 : (⟨S262144, .i32⟩ : BufTy).Contents (Elt Ideal)) :
    val_main_v43 (F := Ideal) x0 x1 = Cert.Spec.tail (F := Ideal) Cert.Spec.tailFacts (val_main_v22 (F := Ideal) x0 x1) := by
  unfold val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26 val_main_v25
    val_main_v24 val_main_v23 val_main_cst_6 val_main_cst_7 val_main_cst_8 val_main_cst_9 val_main_cst_10 val_main_cst_11
    val_main_cst_12 Cert.Spec.tail
  rfl

/-- The reference's result. -/
theorem result_eq (x0 : (⟨S262144x512, .f32⟩ : BufTy).Contents (Elt Ideal)) (x1 : (⟨S262144, .i32⟩ : BufTy).Contents (Elt Ideal)) :
    val_main_v43 (F := Ideal) x0 x1 = Cert.Spec.result x0 x1 := by
  rw [tail_eq, centers_eq]; rfl

end Cert.ReferenceIdeal.RefValue

end
-- ==== Proof.lean ====
/-
  Both programs compute one function of the input `x : [262144, 512]` and the class ids `tg : [262144]`:
  the rows of `x` are turned into softmax rows; for each class `k` the rows whose id is `k` are summed and counted;
  the centre of class `k` is its sum divided by `max count 1`; and the result is
  `ε + (1 - mean (c₀ - c₁)²) + (1 - mean (c₂ - c₃)²)` of the first four centres (Proof/Spec.lean).

  The kernel walks the rows in 64 blocks of 4096 (two cores, 32 steps each, four chunks of 1024 rows a step).  Each chunk
  adds to an [8, 512] accumulator the product of the one-hot matrix of the chunk's ids with the chunk's softmax rows,
  and to an [8, 128] accumulator the one-hot matrix's row sums; a core's accumulators are reset at its first step and
  written out after its last.  Over the extended reals sums may be regrouped freely, so after each step the
  accumulators are the class sums and counts over the rows walked so far (Proof/Invariant.lean, by induction on the
  step), each core's output is the sums and counts over its half of the rows (Proof/KernelValue.lean), and the host
  adds the halves, recovers each count as the mean of its 128 equal lanes, and applies the same final operations as
  the reference (Proof/KernelTail.lean).  The reference scatters the softmax rows by class id into zeros: each centre
  entry is again the sum over the rows of that class, a row whose id is no class landing nowhere on either side
  (Proof/RefValue.lean).  No step uses finiteness of the input.

  The three frame claims are the generated frames (the kernel's, read at both instances) and the reference's generated
  run with the result dropped; the idealization rewrote nothing.
-/
import proofs.«431416_j41403484733685_3_alg».proof.Defs
import proofs.«431416_j41403484733685_3_alg».proof.Proof.Gen.Kernel
import proofs.«431416_j41403484733685_3_alg».proof.Proof.Gen.Kernel.Skeleton
import proofs.«431416_j41403484733685_3_alg».proof.Proof.Gen.Kernel.Loops
import proofs.«431416_j41403484733685_3_alg».proof.Proof.Gen.Kernel.Launch
import proofs.«431416_j41403484733685_3_alg».proof.Proof.Gen.Kernel.Points
import proofs.«431416_j41403484733685_3_alg».proof.Proof.Gen.Kernel.Frame
import proofs.«431416_j41403484733685_3_alg».proof.Proof.Gen.KernelIdeal
import proofs.«431416_j41403484733685_3_alg».proof.Proof.Gen.KernelIdeal.Skeleton
import proofs.«431416_j41403484733685_3_alg».proof.Proof.Gen.KernelIdeal.Loops
import proofs.«431416_j41403484733685_3_alg».proof.Proof.Gen.KernelIdeal.Launch
import proofs.«431416_j41403484733685_3_alg».proof.Proof.Gen.KernelIdeal.Points
import proofs.«431416_j41403484733685_3_alg».proof.Proof.Gen.KernelIdeal.Frame
import proofs.«431416_j41403484733685_3_alg».proof.Proof.Gen.ReferenceIdeal
import proofs.«431416_j41403484733685_3_alg».proof.Proof.Gen.Pre_finite_inputs
import proofs.«431416_j41403484733685_3_alg».proof.Proof.Gen.ReferenceIdeal.Run
import proofs.«431416_j41403484733685_3_alg».proof.Proof.Gen.ReferenceIdeal.Read
import proofs.«431416_j41403484733685_3_alg».proof.Proof.KernelValue
import proofs.«431416_j41403484733685_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the specification's value of the launched arguments, which agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
